-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16x12 : Shape := ⟨4, ![8, 256, 16, 12]⟩
abbrev S256x192 : Shape := ⟨2, ![256, 192]⟩
abbrev S256x256 : Shape := ⟨2, ![256, 256]⟩
abbrev S_ : Shape := ⟨0, ![]⟩

class Facts : Prop where
  bcast_S_S8x256x16x12 : S_.BroadcastsInDim S8x256x16x12 (![] : Fin 0 → Fin S8x256x16x12.rank)
  reducesTo_S8x256x16x12_S_d0_1_2_3 : S8x256x16x12.ReducesTo [0, 1, 2, 3] S_
  h_S_ : 0 < S_.numel
  bcast_S_S256x192 : S_.BroadcastsInDim S256x192 (![] : Fin 0 → Fin S256x192.rank)
  reducesTo_S256x192_S_d0_1 : S256x192.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x256x16x12 .f32) (main_arg1 : FVec F S256x192 .f32) (main_arg2 : FVec F S256x192 .f32) (main_arg3 : FVec F S256x256 .f32) : IVec S_ 1 :=
  let main_v0 : FVec F S8x256x16x12 .f32 := Host.absf main_arg0
  let main_cst : FVec F S_ .f32 := constant S_ .f32 0x7F800000#32
  let main_v1 : FVec F S8x256x16x12 .f32 := broadcastInDim S8x256x16x12 ![] bcast_S_S8x256x16x12 main_cst
  let main_v2 : IVec S8x256x16x12 1 := cmpf .olt main_v0 main_v1
  let main_c : IVec S_ 1 := constantI S_ 1 1#1
  let main_v3 : IVec S_ 1 := (fun x v => Host.reduce IntOp.andi x v reducesTo_S8x256x16x12_S_d0_1_2_3 h_S_) main_v2 main_c
  let main_v4 : FVec F S256x192 .f32 := Host.absf main_arg1
  let main_cst_0 : FVec F S_ .f32 := constant S_ .f32 0x7F800000#32
  let main_v5 : FVec F S256x192 .f32 := broadcastInDim S256x192 ![] bcast_S_S256x192 main_cst_0
  let main_v6 : IVec S256x192 1 := cmpf .olt main_v4 main_v5
  let main_c_1 : IVec S_ 1 := constantI S_ 1 1#1
  let main_v7 : IVec S_ 1 := (fun x v => Host.reduce IntOp.andi x v reducesTo_S256x192_S_d0_1 h_S_) main_v6 main_c_1
  let main_v8 : IVec S_ 1 := andi main_v3 main_v7
  let main_v9 : FVec F S256x192 .f32 := Host.absf main_arg2
  let main_cst_2 : FVec F S_ .f32 := constant S_ .f32 0x7F800000#32
  let main_v10 : FVec F S256x192 .f32 := broadcastInDim S256x192 ![] bcast_S_S256x192 main_cst_2
  let main_v11 : IVec S256x192 1 := cmpf .olt main_v9 main_v10
  let main_c_3 : IVec S_ 1 := constantI S_ 1 1#1
  let main_v12 : IVec S_ 1 := (fun x v => Host.reduce IntOp.andi x v reducesTo_S256x192_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x256x16x12 : Shape := ⟨4, ![8, 256, 16, 12]⟩
abbrev S256x192 : Shape := ⟨2, ![256, 192]⟩
abbrev S256x256 : Shape := ⟨2, ![256, 256]⟩
abbrev S8x256x192 : Shape := ⟨3, ![8, 256, 192]⟩
abbrev S8x256x256 : Shape := ⟨3, ![8, 256, 256]⟩
abbrev S1x128x192 : Shape := ⟨3, ![1, 128, 192]⟩
abbrev S1x256x192 : Shape := ⟨3, ![1, 256, 192]⟩
abbrev S64x192 : Shape := ⟨2, ![64, 192]⟩
abbrev S128x256 : Shape := ⟨2, ![128, 256]⟩
abbrev S1x128x256 : Shape := ⟨3, ![1, 128, 256]⟩
abbrev S128x192 : Shape := ⟨2, ![128, 192]⟩
abbrev S192x64 : Shape := ⟨2, ![192, 64]⟩
abbrev S128x64 : Shape := ⟨2, ![128, 64]⟩
abbrev S256x64 : Shape := ⟨2, ![256, 64]⟩
abbrev S128x1x64 : Shape := ⟨3, ![128, 1, 64]⟩
abbrev S1x256x64 : Shape := ⟨3, ![1, 256, 64]⟩
abbrev S128x256x64 : Shape := ⟨3, ![128, 256, 64]⟩
abbrev S128 : Shape := ⟨1, ![128]⟩
abbrev S128x1 : Shape := ⟨2, ![128, 1]⟩

abbrev nBuf : Space → Nat
  | .hbm => 6
  | .vmem => 13
  | .smem => 0
  | _ => 0

abbrev bufTy : (tb : Table) → Fin (tcTables nBuf tb) → BufTy
  | .hbm, ⟨0, _⟩ => ⟨S8x256x16x12, .f32⟩
  | .hbm, ⟨1, _⟩ => ⟨S256x192, .f32⟩
  | .hbm, ⟨2, _⟩ => ⟨S256x192, .f32⟩
  | .hbm, ⟨3, _⟩ => ⟨S256x256, .f32⟩
  | .hbm, ⟨4, _⟩ => ⟨S8x256x192, .f32⟩
  | .hbm, ⟨5, _⟩ => ⟨S8x256x256, .f32⟩
  | .local _ .vmem, ⟨0, _⟩ => ⟨S1x128x192, .f32⟩
  | .local _ .vmem, ⟨1, _⟩ => ⟨S1x128x192, .f32⟩
  | .local _ .vmem, ⟨2, _⟩ => ⟨S1x256x192, .f32⟩
  | .local _ .vmem, ⟨3, _⟩ => ⟨S1x256x192, .f32⟩
  | .local _ .vmem, ⟨4, _⟩ => ⟨S64x192, .f32⟩
  | .local _ .vmem, ⟨5, _⟩ => ⟨S64x192, .f32⟩
  | .local _ .vmem, ⟨6, _⟩ => ⟨S64x192, .f32⟩
  | .local _ .vmem, ⟨7, _⟩ => ⟨S64x192, .f32⟩
  | .local _ .vmem, ⟨8, _⟩ => ⟨S128x256, .f32⟩
  | .local _ .vmem, ⟨9, _⟩ => ⟨S128x256, .f32⟩
  | .local _ .vmem, ⟨10, _⟩ => ⟨S1x128x256, .f32⟩
  | .local _ .vmem, ⟨11, _⟩ => ⟨S1x128x256, .f32⟩
  | .local _ .vmem, ⟨12, _⟩ => ⟨S128x256, .f32⟩
  | _, _ => ⟨S8x256x16x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S64x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x256x16x12_S8x256x192 : S8x256x16x12.ShapeCasts S8x256x192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x192_S1x128x192_0_0_0 : ∀ a, (![0, 0, 0] : Fin 3 → Nat) a + S1x128x192.size a ≤ S1x128x192.size a
  h_S1x128x192 : 0 < S1x128x192.numel
  shapeCasts_S1x128x192_S128x192 : S1x128x192.ShapeCasts S128x192
  bitsLt_bf16_f32 : FTy.bits .bf16 < FTy.bits .f32
  inb_S1x256x192_S1x256x192_0_0_0 : ∀ a, (![0, 0, 0] : Fin 3 → Nat) a + S1x256x192.size a ≤ S1x256x192.size a
  h_S1x256x192 : 0 < S1x256x192.numel
  shapeCasts_S1x256x192_S256x192 : S1x256x192.ShapeCasts S256x192
  inb_S64x192_S64x192_0_0 : ∀ a, (![0, 0] : Fin 2 → Nat) a + S64x192.size a ≤ S64x192.size a
  h_S64x192 : 0 < S64x192.numel
  transposes_S64x192_p1_0_S192x64 : S64x192.Transposes [1, 0] S192x64
  shapeCasts_S128x64_S128x1x64 : S128x64.ShapeCasts S128x1x64
  shapeCasts_S256x64_S1x256x64 : S256x64.ShapeCasts S1x256x64
  broadcasts_S128x1x64_S128x256x64 : S128x1x64.Broadcasts S128x256x64
  broadcasts_S1x256x64_S128x256x64 : S1x256x64.Broadcasts S128x256x64
  reduces_S128x256x64_S128x256 : S128x256x64.Reduces [2] S128x256
  reduces_S128x256_S128 : S128x256.Reduces [1] S128
  shapeCasts_S128_S128x1 : S128.ShapeCasts S128x1
  broadcasts_S128x1_S128x256 : S128x1.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x192_S192x64_S128x64_1_0_0_1_n_n_wf : DotDims.WF S128x192 S192x64 S128x64 [1] [0] [0] [1] [] []
  dot_S256x192_S192x64_S256x64_1_0_0_1_n_n_wf : DotDims.WF S256x192 S192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x192.size a ≤ S8x256x192.size a
  hwx0_0 : ∀ i : grid0.Coords, EltTy.bits .f32 = 32 ∨ (Rect.block (s := S8x256x192) S1x128x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x192.size a ≤ S8x256x192.size a
  hwx0_1 : ∀ i : grid0.Coords, EltTy.bits .f32 = 32 ∨ (Rect.block (s := S8x256x192) S1x256x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S256x192.size a
  hwx0_2 : ∀ i : grid0.Coords, EltTy.bits .f32 = 32 ∨ (Rect.block (s := S256x192) S64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x192.size a ≤ S256x192.size a
  hwx0_3 : ∀ i : grid0.Coords, EltTy.bits .f32 = 32 ∨ (Rect.block (s := S256x192) S64x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S256x256.size a
  hwx0_4 : ∀ i : grid0.Coords, EltTy.bits .f32 = 32 ∨ (Rect.block (s := S256x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S8x256x256.size a
  hwx0_5 : ∀ i : grid0.Coords, EltTy.bits .f32 = 32 ∨ (Rect.block (s := S8x256x256) S1x128x256.size (cc0_transform_5 i) (hinb0_5 i)).WholeWords (EltTy.packing .f32)

variable [Facts₀]

def dot_S128x192_S192x64_S128x64_1_0_0_1_n_n : DotDims S128x192 S192x64 S128x64 where
  lhsContracting := [1]
  rhsContracting := [0]
  lhsNonContracting := [0]
  rhsNonContracting := [1]
  lhsBatch := []
  rhsBatch := []
  wf := dot_S128x192_S192x64_S128x64_1_0_0_1_n_n_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf

abbrev win0_0 : Pipeline.Window sig grid0 :=
  Pipeline.Window.ofSpec (Memref.whole main_v0) S1x128x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x256x16x12 : Shape := ⟨4, ![8, 256, 16, 12]⟩
abbrev S256x192 : Shape := ⟨2, ![256, 192]⟩
abbrev S256x256 : Shape := ⟨2, ![256, 256]⟩
abbrev S8x256x192 : Shape := ⟨3, ![8, 256, 192]⟩
abbrev S8x256x256 : Shape := ⟨3, ![8, 256, 256]⟩
abbrev S8x256x1x256 : Shape := ⟨4, ![8, 256, 1, 256]⟩
abbrev S8x1x256x256 : Shape := ⟨4, ![8, 1, 256, 256]⟩
abbrev S8x256x256x256 : Shape := ⟨4, ![8, 256, 256, 256]⟩
abbrev S_ : Shape := ⟨0, ![]⟩
abbrev S1x256x256 : Shape := ⟨3, ![1, 256, 256]⟩
abbrev S8x256 : Shape := ⟨2, ![8, 256]⟩
abbrev S8x256x1 : Shape := ⟨3, ![8, 256, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x256x16x12, .f32⟩
  | .hbm, ⟨1, _⟩ => ⟨S256x192, .f32⟩
  | .hbm, ⟨2, _⟩ => ⟨S256x192, .f32⟩
  | .hbm, ⟨3, _⟩ => ⟨S256x256, .f32⟩
  | .hbm, ⟨4, _⟩ => ⟨S8x256x192, .f32⟩
  | .hbm, ⟨5, _⟩ => ⟨S8x256x256, .f32⟩
  | .hbm, ⟨6, _⟩ => ⟨S8x256x256, .f32⟩
  | .hbm, ⟨7, _⟩ => ⟨S8x256x1x256, .f32⟩
  | .hbm, ⟨8, _⟩ => ⟨S8x1x256x256, .f32⟩
  | .hbm, ⟨9, _⟩ => ⟨S8x256x256x256, .f32⟩
  | .hbm, ⟨10, _⟩ => ⟨S8x256x256x256, .f32⟩
  | .hbm, ⟨11, _⟩ => ⟨S8x256x256x256, .f32⟩
  | .hbm, ⟨12, _⟩ => ⟨S8x256x256x256, .f32⟩
  | .hbm, ⟨13, _⟩ => ⟨S8x256x256x256, .f32⟩
  | .hbm, ⟨14, _⟩ => ⟨S_, .f32⟩
  | .hbm, ⟨15, _⟩ => ⟨S8x256x256x256, .f32⟩
  | .hbm, ⟨16, _⟩ => ⟨S8x256x256x256, .f32⟩
  | .hbm, ⟨17, _⟩ => ⟨S_, .f32⟩
  | .hbm, ⟨18, _⟩ => ⟨S8x256x256x256, .f32⟩
  | .hbm, ⟨19, _⟩ => ⟨S8x256x256x256, .f32⟩
  | .hbm, ⟨20, _⟩ => ⟨S_, .f32⟩
  | .hbm, ⟨21, _⟩ => ⟨S8x256x256, .f32⟩
  | .hbm, ⟨22, _⟩ => ⟨S1x256x256, .f32⟩
  | .hbm, ⟨23, _⟩ => ⟨S8x256x256, .f32⟩
  | .hbm, ⟨24, _⟩ => ⟨S8x256x256, .f32⟩
  | .hbm, ⟨25, _⟩ => ⟨S_, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S8x256x1, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S8x256x256, .f32⟩
  | .hbm, ⟨38, _⟩ => ⟨S8x256x256, .f32⟩
  | _, _ => ⟨S8x256x16x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S8x256x16x12_S8x256x192 : S8x256x16x12.ShapeCasts S8x256x192
  bcast_S8x256x256_S8x256x1x256_0_1_3 : S8x256x256.BroadcastsInDim S8x256x1x256 (![0, 1, 3] : Fin 3 → Fin S8x256x1x256.rank)
  bcast_S8x256x256_S8x1x256x256_0_2_3 : S8x256x256.BroadcastsInDim S8x1x256x256 (![0, 2, 3] : Fin 3 → Fin S8x1x256x256.rank)
  bcast_S8x256x1x256_S8x256x256x256_0_1_2_3 : S8x256x1x256.BroadcastsInDim S8x256x256x256 (![0, 1, 2, 3] : Fin 4 → Fin S8x256x256x256.rank)
  bcast_S8x1x256x256_S8x256x256x256_0_1_2_3 : S8x1x256x256.BroadcastsInDim S8x256x256x256 (![0, 1, 2, 3] : Fin 4 → Fin S8x256x256x256.rank)
  bcast_S_S8x256x256x256 : S_.BroadcastsInDim S8x256x256x256 (![] : Fin 0 → Fin S8x256x256x256.rank)
  reducesTo_S8x256x256x256_S8x256x256_d3 : S8x256x256x256.ReducesTo [3] S8x256x256
  h_S_ : 0 < S_.numel
  bcast_S256x256_S1x256x256_1_2 : S256x256.BroadcastsInDim S1x256x256 (![1, 2] : Fin 2 → Fin S1x256x256.rank)
  bcast_S1x256x256_S8x256x256_0_1_2 : S1x256x256.BroadcastsInDim S8x256x256 (![0, 1, 2] : Fin 3 → Fin S8x256x256.rank)
  reducesTo_S8x256x256_S8x256_d2 : S8x256x256.ReducesTo [2] S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x256_0_1_2 : S8x256x1.BroadcastsInDim S8x256x256 (![0, 1, 2] : Fin 3 → Fin S8x256x256.rank)
  dot_S8x256x192_S256x192_S8x256x256_2_1_01_0_n_n_wf : DotDims.WF S8x256x192 S256x192 S8x256x256 [2] [1] [0, 1] [0] [] []

variable [Facts₀]

def dot_S8x256x192_S256x192_S8x256x256_2_1_01_0_n_n : DotDims S8x256x192 S256x192 S8x256x256 where
  lhsContracting := [2]
  rhsContracting := [1]
  lhsNonContracting := [0, 1]
  rhsNonContracting := [0]
  lhsBatch := []
  rhsBatch := []
  wf := dot_S8x256x192_S256x192_S8x256x256_2_1_01_0_n_n_wf

class Facts : Prop extends Facts₀ where

variable [Facts]
-- ==== Proof.BitsStep.lean ====
/- One grid point of the kernel's body, at a symbolic point.

   The grid is (8 batches, 2 row tiles, 4 reduction steps); the body at a point keeps the running sum of pair scores in
   its VMEM scratch: at a row tile's first step it zeroes the scratch, at every step it adds this step's 64 pair-score
   columns, at the last step it adds the bias block, takes the row softmax and stores it in the output's staging buffer.
   Three runs, one per kind of point, each from the five input staging buffers at given contents and the scratch at
   contents `a`: a first step leaves the scratch at `firstv`, any other at `stepv a`, and a last step also leaves the
   output's staging buffer at `outv` of the new scratch and the bias block. -/
import proofs.«172554_j54065048322469_1_alg».proof.Proof.Gen.Kernel
import proofs.«172554_j54065048322469_1_alg».proof.Proof.Gen.Kernel.Skeleton
import proofs.«172554_j54065048322469_1_alg».proof.Proof.Gen.Kernel.Launch
import Idealize.ShloMosaic.Lib.Writes
import Idealize.ShloMosaic.Lib.Pipeline.FrameBody
import Idealize.ShloMosaic.Lib.Pipeline.Value
import Idealize.ShloMosaic.Lib.Tactic

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch memref (the kernel's one scratch buffer, whole). -/
abbrev accM : Memref sig .tc .vmem S128x256 .f32 := Memref.whole cc0_scratch0

/-- The two branch conditions at point `t`: "reduction step 0" as the body computes it, "reduction step 3" as the printed program names it. -/
abbrev IsFirst (t : Fin cfg0.N) : Prop :=
  Scalar.cmpi .ne (Scalar.extui (Scalar.cmpi .eq (BitVec.ofNat 32 ((grid0.coords t) 2).val) 0#32)) 0#32 = 1#1
abbrev IsLast (t : Fin cfg0.N) : Prop := k0_cond2 (grid0.coords t) = 1#1

/-- The scratch after a step from contents `a`: `a` plus this step's pair-score sums. -/
abbrev stepv (x0 : Vec F S1x128x192 .f32) (x1 : Vec F S1x256x192 .f32) (w1 w2 : Vec F S64x192 .f32) (a : Vec F S128x256 .f32) :
    Vec F S128x256 .f32 := k0_pay2 x0 x1 w1 w2 a
/-- after a first step: the zero block plus this step's sums; -/
abbrev firstv (x0 : Vec F S1x128x192 .f32) (x1 : Vec F S1x256x192 .f32) (w1 w2 : Vec F S64x192 .f32) : Vec F S128x256 .f32 :=
  k0_pay2 x0 x1 w1 w2 k0_pay1
/-- the output block a last step stores, from the scratch `a'` it has just written and the bias block. -/
abbrev outv (a' vs : Vec F S128x256 .f32) : Vec F S1x128x256 .f32 := k0_pay3 a' vs

/-- The zero offsets of a rank-2 and of a rank-3 block, as the constant function. -/
theorem z2 : (![0, 0] : Fin 2 → Nat) = fun _ => 0 := funext (by decide)
theorem z3 : (![0, 0, 0] : Fin 3 → Nat) = fun _ => 0 := funext (by decide)

omit [FloatOps F] in
/-- A load through the whole block at zero offsets reads what the buffer reads. -/
theorem readAt_whole {S : Shape} {e : EltTy} {κ : Kind} {sp : Space} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

/-- The step's sums over the four staged operands loaded whole are the sums over what their buffers read. -/
theorem pay2_whole (M0 : Memref sig .tc .vmem S1x128x192 .f32) (M1 : Memref sig .tc .vmem S1x256x192 .f32)
    (M2 M3 : Memref sig .tc .vmem S64x192 .f32) (f0 : M0.view.ty.Contents (Elt F)) (f1 : M1.view.ty.Contents (Elt F))
    (f2 : M2.view.ty.Contents (Elt F)) (f3 : M3.view.ty.Contents (Elt F)) (A : Vec F S128x256 .f32) :
    k0_pay2
      (M0.view.readAt (Elt F) (Rect.unit (s := S1x128x192) ![0, 0, 0] S1x128x192.size inb_S1x128x192_S1x128x192_0_0_0).toLoadRect f0)
      (M1.view.readAt (Elt F) (Rect.unit (s := S1x256x192) ![0, 0, 0] S1x256x192.size inb_S1x256x192_S1x256x192_0_0_0).toLoadRect f1)
      (M2.view.readAt (Elt F) (Rect.unit (s := S64x192) ![0, 0] S64x192.size inb_S64x192_S64x192_0_0).toLoadRect f2)
      (M3.view.readAt (Elt F) (Rect.unit (s := S64x192) ![0, 0] S64x192.size inb_S64x192_S64x192_0_0).toLoadRect f3) A
    = k0_pay2 (M0.view.read (Elt F) f0) (M1.view.read (Elt F) f1) (M2.view.read (Elt F) f2) (M3.view.read (Elt F) f3) A := by
  rw [readAt_whole (S := S1x128x192) M0.view z3 inb_S1x128x192_S1x128x192_0_0_0 f0,
    readAt_whole (S := S1x256x192) M1.view z3 inb_S1x256x192_S1x256x192_0_0_0 f1,
    readAt_whole (S := S64x192) M2.view z2 inb_S64x192_S64x192_0_0 f2,
    readAt_whole (S := S64x192) M3.view z2 inb_S64x192_S64x192_0_0 f3]

section Runs

variable (c : Dev nD) (t : Fin cfg0.N)
  (M0 : Memref sig .tc .vmem S1x128x192 .f32) (h0 : M0.IsWhole) (M1 : Memref sig .tc .vmem S1x256x192 .f32) (h1 : M1.IsWhole)
  (M2 : Memref sig .tc .vmem S64x192 .f32) (h2 : M2.IsWhole) (M3 : Memref sig .tc .vmem S64x192 .f32) (h3 : M3.IsWhole)
  (M4 : Memref sig .tc .vmem S128x256 .f32) (h4 : M4.IsWhole) (M5 : Memref sig .tc .vmem S1x128x256 .f32) (h5 : M5.IsWhole)
  (x0 : Vec F S1x128x192 .f32) (x1 : Vec F S1x256x192 .f32) (w1 w2 : Vec F S64x192 .f32) (vs a : Vec F S128x256 .f32)

local notation "BODY" => cc0__kernel (grid0.coords t) M0 h0 M1 h1 M2 h2 M3 h3 M4 h4 M5 h5 (Memref.whole cc0_scratch0) (Memref.isWhole_whole _)

/-- The five input staging buffers at their contents. -/
abbrev ins : sProp 𝕄 :=
  iprop(owns (c : Thread nD τ) M0 fullShare x0 ∗ owns (c : Thread nD τ) M1 fullShare x1 ∗ owns (c : Thread nD τ) M2 fullShare w1
    ∗ owns (c : Thread nD τ) M3 fullShare w2 ∗ owns (c : Thread nD τ) M4 fullShare vs)

/-- A first step: the scratch, whatever it held, ends at `firstv`; the output's buffer (held as any `O`) is untouched. -/
theorem run_first (hF : IsFirst t) (hL : ¬ IsLast t) (O : sProp 𝕄) (Q : PUnit → sProp 𝕄) :
    iprop(ins c M0 M1 M2 M3 M4 x0 x1 w1 w2 vs ∗ O ∗ (∃ a, owns (c : Thread nD τ) accM fullShare a)
      ∗ (iprop(ins c M0 M1 M2 M3 M4 x0 x1 w1 w2 vs ∗ O ∗ owns (c : Thread nD τ) accM fullShare (firstv x0 x1 w1 w2)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, HO, ⟨%a', %fa, %hfa, Ha⟩, Hk⟩
  subst hf0 hf1 hf2 hf3 hf4
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [HO]; · iexact HO
  iexists _; isplitr; swap; (· iexact Ha); ipureintro
  refine (View.read_writes_eq_canon _ _ _ ?_).trans ?_
  · unfold run_first.sl.Ha_2; exact fun y => ⟨_, List.mem_cons_self .., View.mem_set_unit_zero z2 inb_S128x256_S128x256_0_0 y⟩
  · unfold run_first.sl.Ha_2
    refine (View.canon_cons_unit_zero z2 inb_S128x256_S128x256_0_0 _ _).trans ?_
    unfold run_first.sl.v23 run_first.sl.Ha_1
    rw [View.readCov_unit_zero (S := S128x256) accM.view z2 inb_S128x256_S128x256_0_0]
    exact pay2_whole M0 M1 M2 M3 f0 f1 f2 f3 _

/-- A middle step: the scratch at `a` ends at `stepv a`; the output's buffer is untouched. -/
theorem run_mid (hF : ¬ IsFirst t) (hL : ¬ IsLast t) (O : sProp 𝕄) (Q : PUnit → sProp 𝕄) :
    iprop(ins c M0 M1 M2 M3 M4 x0 x1 w1 w2 vs ∗ O ∗ owns (c : Thread nD τ) accM fullShare a
      ∗ (iprop(ins c M0 M1 M2 M3 M4 x0 x1 w1 w2 vs ∗ O ∗ owns (c : Thread nD τ) accM fullShare (stepv x0 x1 w1 w2 a)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, HO, ⟨%fa, %hfa, Ha⟩, Hk⟩
  subst hf0 hf1 hf2 hf3 hf4 hfa
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [HO]; · iexact HO
  iexists _; isplitr; swap; (· iexact Ha); ipureintro
  refine (View.read_writes_eq_canon _ _ _ ?_).trans ?_
  · unfold run_mid.sl.Ha_1; exact fun y => ⟨_, List.mem_singleton_self _, View.mem_set_unit_zero z2 inb_S128x256_S128x256_0_0 y⟩
  · unfold run_mid.sl.Ha_1
    refine (View.canon_unit_zero z2 inb_S128x256_S128x256_0_0 _).trans ?_
    rw [readAt_whole (S := S128x256) accM.view z2 inb_S128x256_S128x256_0_0 fa]
    exact pay2_whole M0 M1 M2 M3 f0 f1 f2 f3 _

/-- A last step: the scratch at `a` ends at `stepv a` and the output's buffer, whatever it held, at `outv (stepv a) vs`. -/
theorem run_last (hF : ¬ IsFirst t) (hL : IsLast t) (Q : PUnit → sProp 𝕄) :
    iprop(ins c M0 M1 M2 M3 M4 x0 x1 w1 w2 vs ∗ (∃ d, owns (c : Thread nD τ) M5 fullShare d) ∗ owns (c : Thread nD τ) accM fullShare a
      ∗ (iprop(ins c M0 M1 M2 M3 M4 x0 x1 w1 w2 vs ∗ owns (c : Thread nD τ) M5 fullShare (outv (stepv x0 x1 w1 w2 a) vs)
            ∗ owns (c : Thread nD τ) accM fullShare (stepv x0 x1 w1 w2 a)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, %hf5, H5⟩, ⟨%fa, %hfa, Ha⟩, Hk⟩
  subst hf0 hf1 hf2 hf3 hf4 hfa
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [H5]
  · iexists _; isplitr; swap; (· iexact H5); ipureintro
    refine (View.read_writes_eq_canon _ _ _ ?_).trans ?_
    · unfold run_last.sl.H5_1; exact fun y => ⟨_, List.mem_singleton_self _, View.mem_set_unit_zero z3 inb_S1x128x256_S1x128x256_0_0_0 y⟩
    · unfold run_last.sl.H5_1
      refine (View.canon_unit_zero z3 inb_S1x128x256_S1x128x256_0_0_0 _).trans ?_
      unfold run_last.sl.v32 run_last.sl.Ha_1
      rw [View.readCov_unit_zero (S := S128x256) accM.view z2 inb_S128x256_S128x256_0_0, readAt_whole (S := S128x256) accM.view z2 inb_S128x256_S128x256_0_0 fa,
        readAt_whole (S := S128x256) M4.view z2 inb_S128x256_S128x256_0_0 f4, pay2_whole M0 M1 M2 M3 f0 f1 f2 f3]
  iexists _; isplitr; swap; (· iexact Ha); ipureintro
  refine (View.read_writes_eq_canon _ _ _ ?_).trans ?_
  · unfold run_last.sl.Ha_1; exact fun y => ⟨_, List.mem_singleton_self _, View.mem_set_unit_zero z2 inb_S128x256_S128x256_0_0 y⟩
  · unfold run_last.sl.Ha_1
    refine (View.canon_unit_zero z2 inb_S128x256_S128x256_0_0 _).trans ?_
    rw [readAt_whole (S := S128x256) accM.view z2 inb_S128x256_S128x256_0_0 fa]
    exact pay2_whole M0 M1 M2 M3 f0 f1 f2 f3 _

end Runs

end Cert.Proof.K

end
-- ==== Proof.BitsData.lean ====
/- The kernel's pipeline: what the region finds, what each grid point leaves, and the body obligation.

   @main reshapes the input to [8, 256, 192] and runs one region of 64 points (8 batches × 2 row tiles × 4 reduction
   steps, the reduction step moving fastest). The reshaped array is read through two windows (a 128-row query tile and
   the whole 256-row key block of the batch), the two weight matrices through 64-row windows moved by the reduction step,
   the bias through a 128-row window moved by the row tile; the output's 128-row block is written back after each row
   tile's last step. Between points the scratch carries the running sum: before a row tile's first step it holds anything,
   before any other step what the previous point left (`accA`, by recursion on the point). -/
import proofs.«172554_j54065048322469_1_alg».proof.Proof.BitsStep
import proofs.«172554_j54065048322469_1_alg».proof.Proof.Gen.Kernel.Points
import Idealize.ShloMosaic.Lib.Pipeline.Frame
import Idealize.ShloMosaic.Lib.Pipeline.FrameBody

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers when the region is entered: after the reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four arguments: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The five input blocks at a point, at their literal types: the query tile, the key block, the two weight tiles, the bias tile. -/
abbrev xq (c : Dev nD) (t : Fin cfg0.N) : Vec F S1x128x192 .f32 := iblk m c 0 t
abbrev xk (c : Dev nD) (t : Fin cfg0.N) : Vec F S1x256x192 .f32 := iblk m c 1 t
abbrev wa (c : Dev nD) (t : Fin cfg0.N) : Vec F S64x192 .f32 := iblk m c 2 t
abbrev wb (c : Dev nD) (t : Fin cfg0.N) : Vec F S64x192 .f32 := iblk m c 3 t
abbrev vb (c : Dev nD) (t : Fin cfg0.N) : Vec F S128x256 .f32 := iblk m c 4 t

/-! ## The kinds of point -/

/-- A point is a row tile's first step iff its number is ≡ 0 (mod 4), its last iff ≡ 3. -/
theorem isFirst_iff : ∀ t : Fin cfg0.N, IsFirst t ↔ t.val % 4 = 0 :=
  (by decide +kernel : ∀ t : Fin grid0.N,
    (Scalar.cmpi .ne (Scalar.extui (Scalar.cmpi .eq (BitVec.ofNat 32 ((grid0.coords t) 2).val) 0#32)) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-! ## The scratch after each point -/

/-- The scratch after point `k` of core `c`'s run: a first step leaves `firstv` of the point's blocks, any other
    `stepv` of them and the previous contents. -/
def accA (c : Dev nD) : (k : ℕ) → k < cfg0.N → Vec F S128x256 .f32
  | 0, hk => firstv (xq m c ⟨0, hk⟩) (xk m c ⟨0, hk⟩) (wa m c ⟨0, hk⟩) (wb m c ⟨0, hk⟩)
  | k + 1, hk =>
    if (k + 1) % 4 = 0 then firstv (xq m c ⟨k + 1, hk⟩) (xk m c ⟨k + 1, hk⟩) (wa m c ⟨k + 1, hk⟩) (wb m c ⟨k + 1, hk⟩)
    else stepv (xq m c ⟨k + 1, hk⟩) (xk m c ⟨k + 1, hk⟩) (wa m c ⟨k + 1, hk⟩) (wb m c ⟨k + 1, hk⟩) (accA c k (Nat.lt_of_succ_lt hk))

theorem accA_first (c : Dev nD) (t : Fin cfg0.N) (h : t.val % 4 = 0) :
    accA m c t.val t.isLt = firstv (xq m c t) (xk m c t) (wa m c t) (wb m c t) := by
  obtain ⟨k, hk⟩ := t
  cases k with
  | zero => rfl
  | succ k => show (if (k + 1) % 4 = 0 then _ else _) = _; rw [if_pos h]

theorem accA_step (c : Dev nD) (t : Fin cfg0.N) (h : t.val % 4 ≠ 0) (hp : t.val - 1 < cfg0.N) :
    accA m c t.val t.isLt = stepv (xq m c t) (xk m c t) (wa m c t) (wb m c t) (accA m c (t.val - 1) hp) := by
  obtain ⟨k, hk⟩ := t
  cases k with
  | zero => exact absurd rfl h
  | succ k => show (if (k + 1) % 4 = 0 then _ else _) = _; rw [if_neg h]; rfl

/-- The scratch BEFORE a point that is not a row tile's first: what the previous point left. -/
abbrev accB (c : Dev nD) (t : Fin cfg0.N) (h : t.val % 4 ≠ 0) : Vec F S128x256 .f32 :=
  accA m c (t.val - 1) (by have := t.isLt; omega)

/-- The block a point leaves in the output's staging buffer (consulted at last steps only): the softmax block of the
    scratch it has just written and the bias tile. -/
def outAt (c : Dev nD) (t : Fin cfg0.N) : Vec F S1x128x256 .f32 := outv (accA m c t.val t.isLt) (vb m c t)

/-! ## The proof data -/

/-- The invariant before point `k` (k = 0 … 64): the scratch at anything before a row tile's first step and after the
    last point, else at what the previous point left. -/
def Φv (c : Dev nD) (k : Fin (cfg0.N + 1)) : sProp 𝕄 :=
  if h : k.val % 4 = 0 then iprop(∃ a, owns (c : Thread nD τ) accM fullShare a)
  else iprop(owns (c : Thread nD τ) accM fullShare (accA m c (k.val - 1) (by have := k.isLt; omega)))

/-- The proof data of the pipeline on core `c`: the arrays as the region finds them; each input's buffer left at its
    block, the output's at `outAt`; the invariant `Φv`; the reshaped array shared half and half between its two windows,
    every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := Φv m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

abbrev 𝒱₀ : Variants := Variants.none

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- The output's window is idle except at a last step, and written back exactly there. -/
theorem idle5_of_last (t : Fin cfg0.N) (h : IsLast t) : idle0 5 (grid0.coords t) = false := by
  show (!(k0_cond2 (grid0.coords t) == 1#1)) = false; rw [show (k0_cond2 (grid0.coords t) == 1#1) = true from beq_iff_eq.mpr h]; rfl
theorem idle5_of_not_last (t : Fin cfg0.N) (h : ¬ IsLast t) : idle0 5 (grid0.coords t) = true := by
  show (!(k0_cond2 (grid0.coords t) == 1#1)) = true; rw [show (k0_cond2 (grid0.coords t) == 1#1) = false from beq_eq_false_iff_ne.mpr h]; rfl
theorem flush5_of_last (t : Fin cfg0.N) (h : IsLast t) : (cfg0.win 5).flush t = true := (flush0_5 t).mpr ((isLast_iff t).mp h)
theorem flush5_of_not_last (t : Fin cfg0.N) (h : ¬ IsLast t) : (cfg0.win 5).flush t = false :=
  Bool.eq_false_iff.mpr fun hf => h ((isLast_iff t).mpr ((flush0_5 t).mp hf))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 4 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 4 = 3) :
    (dats m 0 c).Φ t.succ = iprop(∃ a, owns (c : Thread nD τ) accM fullShare a) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) accM fullShare (accA m c t.val t.isLt)) := by
  show Φv m c _ = _; unfold Φv; rw [dif_neg (by show ¬ (t.val + 1) % 4 = 0; omega)]; rfl

end Cert.Proof.K

end
-- ==== Proof.BitsLaunch.lean ====
/- The kernel's run: the body obligation at every point and the launch of the one region.

   The reshaped input is handed to the region through two windows, so the launch deals its buffer half and half between
   them; every other array is held whole. The kernel has no semaphore of its own; its scratch is the only scoped buffer
   besides the staging buffers and enters and leaves the invariant at any contents. -/
import proofs.«172554_j54065048322469_1_alg».proof.Proof.BitsData
import Idealize.ShloMosaic.Lib.Pipeline.Kit
import Idealize.ShloMosaic.Lib.Pipeline.Frame

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl

/-- The library's body obligation at every point, by the point's kind: the run of that kind applied between the
    invariant's two forms; the output's staging buffer passed through at an idle step, at what the step stored at a
    last one. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hL : IsLast t
  · -- a last step: not a first one
    have h3 : t.val % 4 = 3 := (isLast_iff t).mp hL
    have hF : ¬ IsFirst t := fun h => by have := (isFirst_iff t).mp h; omega
    simp only [idle_0, idle_1, idle_2, idle_3, idle_4, idle5_of_last t hL, flush5_of_last t hL,
      before0, before1, before2, before3, before4, after0, after1, after2, after3, after4, after5]
    rw [Φ_pre_other m c t (by omega), Φ_post_last m c t h3,
      show outAt m c t = outv (stepv (xq m c t) (xk m c t) (wa m c t) (wb m c t) (accB m c t (by omega))) (vb m c t) from by
        unfold outAt; rw [accA_step m c t (by omega)]]
    iintro ⟨Ha, ⟨%Wt, %hW, HO⟩, ⟨%d0, H0⟩, ⟨%d1, H1⟩, ⟨%d2, H2⟩, ⟨%d3, H3⟩, ⟨%d4, H4⟩, ⟨%d5, H5⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (xq m c t) (xk m c t) (wa m c t) (wb m c t) (vb m c t) (accB m c t (by omega)) hF hL)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Ha]; · iexact Ha
    iintro ⟨⟨H0, H1, H2, H3, H4⟩, H5, Ha⟩
    isplitl [Ha]; · iexists _; iexact Ha
    isplitl [HO]; · iapply (owesAt_intro m c); iexact HO
    isplitl [H0]; · iexact H0
    isplitl [H1]; · iexact H1
    isplitl [H2]; · iexact H2
    isplitl [H3]; · iexact H3
    isplitl [H4]; · iexact H4
    iexact H5
  · simp only [idle_0, idle_1, idle_2, idle_3, idle_4, idle5_of_not_last t hL, flush5_of_not_last t hL,
      before0, before1, before2, before3, before4, after0, after1, after2, after3, after4, after5]
    by_cases hF : IsFirst t
    · -- a first step
      have h0 : t.val % 4 = 0 := (isFirst_iff t).mp hF
      rw [Φ_pre_first m c t h0, Φ_post_other m c t (by omega), accA_first m c t h0]
      iintro ⟨Ha, ⟨%Wt, %hW, HO⟩, ⟨%d0, H0⟩, ⟨%d1, H1⟩, ⟨%d2, H2⟩, ⟨%d3, H3⟩, ⟨%d4, H4⟩, H5⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (xq m c t) (xk m c t) (wa m c t) (wb m c t) (vb m c t) hF hL _)
      isplitl [H0 H1 H2 H3 H4]
      · isplitl [H0]; · iexact H0
        isplitl [H1]; · iexact H1
        isplitl [H2]; · iexact H2
        isplitl [H3]; · iexact H3
        iexact H4
      isplitl [H5]; · iexact H5
      isplitl [Ha]; · iexact Ha
      iintro ⟨⟨H0, H1, H2, H3, H4⟩, H5, Ha⟩
      isplitl [Ha]; · iexact Ha
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · -- a middle step
      have h1 : t.val % 4 ≠ 0 := fun h => hF ((isFirst_iff t).mpr h)
      have h2 : t.val % 4 ≠ 3 := fun h => hL ((isLast_iff t).mpr h)
      rw [Φ_pre_other m c t h1, Φ_post_other m c t h2, accA_step m c t h1]
      iintro ⟨Ha, ⟨%Wt, %hW, HO⟩, ⟨%d0, H0⟩, ⟨%d1, H1⟩, ⟨%d2, H2⟩, ⟨%d3, H3⟩, ⟨%d4, H4⟩, H5⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (xq m c t) (xk m c t) (wa m c t) (wb m c t) (vb m c t) (accB m c t h1) hF hL _)
      isplitl [H0 H1 H2 H3 H4]
      · isplitl [H0]; · iexact H0
        isplitl [H1]; · iexact H1
        isplitl [H2]; · iexact H2
        isplitl [H3]; · iexact H3
        iexact H4
      isplitl [H5]; · iexact H5
      isplitl [Ha]; · iexact Ha
      iintro ⟨⟨H0, H1, H2, H3, H4⟩, H5, Ha⟩
      isplitl [Ha]; · iexact Ha
      isplitl [HO]; · iapply (owesAt_intro m c); iexact HO
      isplitl [H0]; · iexact H0
      isplitl [H1]; · iexact H1
      isplitl [H2]; · iexact H2
      isplitl [H3]; · iexact H3
      isplitl [H4]; · iexact H4
      iexact H5

end Cert.Proof.K

end
-- ==== Proof.BitsShare.lean ====
/- How the launch deals the region's arrays to the pipeline's windows.

   The buffers behind the windows' arrays are five: the reshaped input, the two weight matrices, the bias and the output.
   The reshaped input is read through two windows, which hold it at the two halves of the full share; each other buffer
   belongs to one window, which holds it whole. -/
import proofs.«172554_j54065048322469_1_alg».proof.Proof.BitsData
import Idealize.ShloMosaic.Lib.Pipeline.Kit

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- The share each window holds its array at: the reshaped input's two windows hold the two halves, every other window the whole. -/
theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

/-- A window's array at entry, through its own view at the window's share, is the buffer behind it held whole at that
    share at the region-entry contents: the array is a whole buffer, so its view holds every element. -/
theorem win_eq (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]
  show (_ ↦{q} (dats m 0 c).A w : sProp 𝕄) = _
  rw [A_eq]

/-- The distinct buffers behind the arrays, each whole at the full share at the region-entry contents, make the
    pipeline's arrays at entry: the reshaped input split between its two windows, the rest one to one. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v0, main_arg1, main_arg2, main_arg3, main_v1] (by decide) (by decide)]
  rw [bigSep_W0]
  rw [win_eq m c 0 _ (share0 m c), win_eq m c 1 _ (share1 m c), win_eq m c 2 _ (share2 m c), win_eq m c 3 _ (share3 m c),
    win_eq m c 4 _ (share4 m c), win_eq m c 5 _ (share5 m c)]
  show iprop((((c.tc : Thread nD τ).loc main_v0) ↦{fullShare} V m c main_v0 : sProp 𝕄) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_v1) ↦{fullShare} V m c main_v1)) ⊢ _
  refine (sep_mono_left (pointsTo_share (PosShare.mem_left_op_right fullShare)).1).trans ?_
  iintro ⟨⟨H0, H1⟩, H2, H3, H4, H5⟩
  isplitl [H0]; · iexact H0
  isplitl [H1]; · iexact H1
  isplitl [H2]; · iexact H2
  isplitl [H3]; · iexact H3
  isplitl [H4]; · iexact H4
  iexact H5

end Cert.Proof.K

end
-- ==== Proof.BitsRun.lean ====
/- The kernel's run from launch to return.

   Every weakly fair execution of @main terminates; the output array ends at the pipeline's account of its window and the
   four arguments end as launched: the weight matrices and the bias are input windows' arrays, never written; the
   original input is no window's array and bypasses the region. -/
import proofs.«172554_j54065048322469_1_alg».proof.Proof.BitsLaunch
import proofs.«172554_j54065048322469_1_alg».proof.Proof.BitsShare
import Idealize.ShloMosaic.Lib.Pipeline.Kit
import Idealize.ShloMosaic.Lib.Pipeline.Frame

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region finds the reshaped input: the argument read in row-major order at the new shape. -/
theorem V_main_v0 (c : Dev nD) :
    (V m c main_v0 : Vec F S8x256x192 .f32)
      = shapeCast S8x256x192 (m ((c.tc : Thread nD τ).loc main_arg0)) shapeCasts_S8x256x16x12_S8x256x192 := by
  dsimp only [V, hostOps0]; after_results; rfl

/-- Before the first point and after the last the scratch holds anything. -/
theorem Φ_zero (c : Dev nD) : (dats m 0 c).Φ 0 = iprop(∃ a, owns (c : Thread nD τ) accM fullShare a) := by
  dsimp only [dats]; unfold Φv; exact dif_pos (by decide)
theorem Φ_last (c : Dev nD) : (dats m 0 c).Φ (Fin.last cfg0.N) = iprop(∃ a, owns (c : Thread nD τ) accM fullShare a) := by
  dsimp only [dats]; unfold Φv; exact dif_pos (by decide)

/-- The scoped rest — the scratch at some contents — is the invariant before the first point, -/
theorem hin (c : Dev nD) : iprop((emp : sProp 𝕄) ∗ Pipeline.scopedRest spec0 c) ⊢ (dats m 0 c).Φ 0 := by
  rw [Φ_zero, scopedRest0_eq]
  iintro ⟨-, ⟨%f, Hf⟩⟩
  iexists f; rw [owns_whole_eq]; iexists f; isplitr; (· ipureintro; rfl); iexact Hf

/-- and the invariant after the last point gives it back. -/
theorem hout (c : Dev nD) : (dats m 0 c).Φ (Fin.last cfg0.N) ⊢ iprop((emp : sProp 𝕄) ∗ Pipeline.scopedRest spec0 c) := by
  rw [Φ_last, scopedRest0_eq]; simp only [owns_whole_eq]
  iintro ⟨%a, %f, %hf, Hf⟩
  isplitr; · iempintro
  iexists f; iexact Hf

set_option backward.isDefEq.respectTransparency.types false in
/-- THE RUN: from any memory with zero counters every weakly fair execution of @main on the TensorCores terminates; the
    output array ends at the pipeline's account of the write-backs and the arguments as launched. -/
theorem run_main : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m 𝒱₀) (hsplit := hsplit m)
    (X := fun _ => iprop(emp)) (Y := fun _ => iprop(emp)) (Z := fun c => Pipeline.unscopedRest spec0 c (V m c))
    (hX := fun c => by iintro H; isplitr; (· iempintro); iexact H)
    (hin := hin m) (hout := hout m)
    (QY := fun c s => s.mem ((c.tc : Thread nD τ).loc main_arg0) = V m c main_arg0)
    (hY := fun c s' => by
      rw [unscopedRest0_eq]
      iintro ⟨-, HU, HSI⟩
      icombine HSI HU gives %h
      imodintro
      isplitr
      · ipureintro; exact Buf.eq_of_forall_mem_univ h
      · iexact HSI)
    (hQ := fun s h c => ⟨(h c).1 5,
      (h c).2.trans (V_main_arg0 m c),
      ((h c).1 2).trans (((dats m 0 c).arrAt_in 2 rfl _).trans (V_main_arg1 m c)),
      ((h c).1 3).trans (((dats m 0 c).arrAt_in 3 rfl _).trans (V_main_arg2 m c)),
      ((h c).1 4).trans (((dats m 0 c).arrAt_in 4 rfl _).trans (V_main_arg3 m c))⟩)

end Cert.Proof.K

end
-- ==== Proof.IdealStep.lean ====
/- One grid point of the idealized kernel's body, at a symbolic point.

   The grid is (8 batches, 2 row tiles, 4 reduction steps); the body at a point keeps the running sum of pair scores in
   its VMEM scratch: at a row tile's first step it zeroes the scratch, at every step it adds this step's 64 pair-score
   columns, at the last step it adds the bias block, takes the row softmax and stores it in the output's staging buffer.
   Three runs, one per kind of point, each from the five input staging buffers at given contents and the scratch at
   contents `a`: a first step leaves the scratch at `firstv`, any other at `stepv a`, and a last step also leaves the
   output's staging buffer at `outv` of the new scratch and the bias block. -/
import proofs.«172554_j54065048322469_1_alg».proof.Proof.Gen.KernelIdeal
import proofs.«172554_j54065048322469_1_alg».proof.Proof.Gen.KernelIdeal.Skeleton
import proofs.«172554_j54065048322469_1_alg».proof.Proof.Gen.KernelIdeal.Launch
import Idealize.ShloMosaic.Lib.Writes
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch memref (the kernel's one scratch buffer, whole). -/
abbrev accM : Memref sig .tc .vmem S128x256 .f32 := Memref.whole cc0_scratch0

/-- The two branch conditions at point `t`: "reduction step 0" as the body computes it, "reduction step 3" as the printed program names it. -/
abbrev IsFirst (t : Fin cfg0.N) : Prop :=
  Scalar.cmpi .ne (Scalar.extui (Scalar.cmpi .eq (BitVec.ofNat 32 ((grid0.coords t) 2).val) 0#32)) 0#32 = 1#1
abbrev IsLast (t : Fin cfg0.N) : Prop := k0_cond2 (grid0.coords t) = 1#1

/-- The scratch after a step from contents `a`: `a` plus this step's pair-score sums. -/
abbrev stepv (x0 : Vec F S1x128x192 .f32) (x1 : Vec F S1x256x192 .f32) (w1 w2 : Vec F S64x192 .f32) (a : Vec F S128x256 .f32) :
    Vec F S128x256 .f32 := k0_pay2 x0 x1 w1 w2 a
/-- after a first step: the zero block plus this step's sums; -/
abbrev firstv (x0 : Vec F S1x128x192 .f32) (x1 : Vec F S1x256x192 .f32) (w1 w2 : Vec F S64x192 .f32) : Vec F S128x256 .f32 :=
  k0_pay2 x0 x1 w1 w2 k0_pay1
/-- the output block a last step stores, from the scratch `a'` it has just written and the bias block. -/
abbrev outv (a' vs : Vec F S128x256 .f32) : Vec F S1x128x256 .f32 := k0_pay3 a' vs

/-- The zero offsets of a rank-2 and of a rank-3 block, as the constant function. -/
theorem z2 : (![0, 0] : Fin 2 → Nat) = fun _ => 0 := funext (by decide)
theorem z3 : (![0, 0, 0] : Fin 3 → Nat) = fun _ => 0 := funext (by decide)

omit [FloatOps F] in
/-- A load through the whole block at zero offsets reads what the buffer reads. -/
theorem readAt_whole {S : Shape} {e : EltTy} {κ : Kind} {sp : Space} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  View.ld_unit_zero h inb _

/-- The step's sums over the four staged operands loaded whole are the sums over what their buffers read. -/
theorem pay2_whole (M0 : Memref sig .tc .vmem S1x128x192 .f32) (M1 : Memref sig .tc .vmem S1x256x192 .f32)
    (M2 M3 : Memref sig .tc .vmem S64x192 .f32) (f0 : M0.view.ty.Contents (Elt F)) (f1 : M1.view.ty.Contents (Elt F))
    (f2 : M2.view.ty.Contents (Elt F)) (f3 : M3.view.ty.Contents (Elt F)) (A : Vec F S128x256 .f32) :
    k0_pay2
      (M0.view.readAt (Elt F) (Rect.unit (s := S1x128x192) ![0, 0, 0] S1x128x192.size inb_S1x128x192_S1x128x192_0_0_0).toLoadRect f0)
      (M1.view.readAt (Elt F) (Rect.unit (s := S1x256x192) ![0, 0, 0] S1x256x192.size inb_S1x256x192_S1x256x192_0_0_0).toLoadRect f1)
      (M2.view.readAt (Elt F) (Rect.unit (s := S64x192) ![0, 0] S64x192.size inb_S64x192_S64x192_0_0).toLoadRect f2)
      (M3.view.readAt (Elt F) (Rect.unit (s := S64x192) ![0, 0] S64x192.size inb_S64x192_S64x192_0_0).toLoadRect f3) A
    = k0_pay2 (M0.view.read (Elt F) f0) (M1.view.read (Elt F) f1) (M2.view.read (Elt F) f2) (M3.view.read (Elt F) f3) A := by
  rw [readAt_whole (S := S1x128x192) M0.view z3 inb_S1x128x192_S1x128x192_0_0_0 f0,
    readAt_whole (S := S1x256x192) M1.view z3 inb_S1x256x192_S1x256x192_0_0_0 f1,
    readAt_whole (S := S64x192) M2.view z2 inb_S64x192_S64x192_0_0 f2,
    readAt_whole (S := S64x192) M3.view z2 inb_S64x192_S64x192_0_0 f3]

section Runs

variable (c : Dev nD) (t : Fin cfg0.N)
  (M0 : Memref sig .tc .vmem S1x128x192 .f32) (h0 : M0.IsWhole) (M1 : Memref sig .tc .vmem S1x256x192 .f32) (h1 : M1.IsWhole)
  (M2 : Memref sig .tc .vmem S64x192 .f32) (h2 : M2.IsWhole) (M3 : Memref sig .tc .vmem S64x192 .f32) (h3 : M3.IsWhole)
  (M4 : Memref sig .tc .vmem S128x256 .f32) (h4 : M4.IsWhole) (M5 : Memref sig .tc .vmem S1x128x256 .f32) (h5 : M5.IsWhole)
  (x0 : Vec F S1x128x192 .f32) (x1 : Vec F S1x256x192 .f32) (w1 w2 : Vec F S64x192 .f32) (vs a : Vec F S128x256 .f32)

local notation "BODY" => cc0__kernel (grid0.coords t) M0 h0 M1 h1 M2 h2 M3 h3 M4 h4 M5 h5 (Memref.whole cc0_scratch0) (Memref.isWhole_whole _)

/-- The five input staging buffers at their contents. -/
abbrev ins : sProp 𝕄 :=
  iprop(owns (c : Thread nD τ) M0 fullShare x0 ∗ owns (c : Thread nD τ) M1 fullShare x1 ∗ owns (c : Thread nD τ) M2 fullShare w1
    ∗ owns (c : Thread nD τ) M3 fullShare w2 ∗ owns (c : Thread nD τ) M4 fullShare vs)

/-- A first step: the scratch, whatever it held, ends at `firstv`; the output's buffer (held as any `O`) is untouched. -/
theorem run_first (hF : IsFirst t) (hL : ¬ IsLast t) (O : sProp 𝕄) (Q : PUnit → sProp 𝕄) :
    iprop(ins c M0 M1 M2 M3 M4 x0 x1 w1 w2 vs ∗ O ∗ (∃ a, owns (c : Thread nD τ) accM fullShare a)
      ∗ (iprop(ins c M0 M1 M2 M3 M4 x0 x1 w1 w2 vs ∗ O ∗ owns (c : Thread nD τ) accM fullShare (firstv x0 x1 w1 w2)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, HO, ⟨%a', %fa, %hfa, Ha⟩, Hk⟩
  subst hf0 hf1 hf2 hf3 hf4
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [HO]; · iexact HO
  iexists _; isplitr; swap; (· iexact Ha); ipureintro
  refine (View.read_writes_eq_canon _ _ _ ?_).trans ?_
  · unfold run_first.sl.Ha_2; exact fun y => ⟨_, List.mem_cons_self .., View.mem_set_unit_zero z2 inb_S128x256_S128x256_0_0 y⟩
  · unfold run_first.sl.Ha_2
    refine (View.canon_cons_unit_zero z2 inb_S128x256_S128x256_0_0 _ _).trans ?_
    unfold run_first.sl.v23 run_first.sl.Ha_1
    rw [View.readCov_unit_zero (S := S128x256) accM.view z2 inb_S128x256_S128x256_0_0]
    exact pay2_whole M0 M1 M2 M3 f0 f1 f2 f3 _

/-- A middle step: the scratch at `a` ends at `stepv a`; the output's buffer is untouched. -/
theorem run_mid (hF : ¬ IsFirst t) (hL : ¬ IsLast t) (O : sProp 𝕄) (Q : PUnit → sProp 𝕄) :
    iprop(ins c M0 M1 M2 M3 M4 x0 x1 w1 w2 vs ∗ O ∗ owns (c : Thread nD τ) accM fullShare a
      ∗ (iprop(ins c M0 M1 M2 M3 M4 x0 x1 w1 w2 vs ∗ O ∗ owns (c : Thread nD τ) accM fullShare (stepv x0 x1 w1 w2 a)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, HO, ⟨%fa, %hfa, Ha⟩, Hk⟩
  subst hf0 hf1 hf2 hf3 hf4 hfa
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [HO]; · iexact HO
  iexists _; isplitr; swap; (· iexact Ha); ipureintro
  refine (View.read_writes_eq_canon _ _ _ ?_).trans ?_
  · unfold run_mid.sl.Ha_1; exact fun y => ⟨_, List.mem_singleton_self _, View.mem_set_unit_zero z2 inb_S128x256_S128x256_0_0 y⟩
  · unfold run_mid.sl.Ha_1
    refine (View.canon_unit_zero z2 inb_S128x256_S128x256_0_0 _).trans ?_
    rw [readAt_whole (S := S128x256) accM.view z2 inb_S128x256_S128x256_0_0 fa]
    exact pay2_whole M0 M1 M2 M3 f0 f1 f2 f3 _

/-- A last step: the scratch at `a` ends at `stepv a` and the output's buffer, whatever it held, at `outv (stepv a) vs`. -/
theorem run_last (hF : ¬ IsFirst t) (hL : IsLast t) (Q : PUnit → sProp 𝕄) :
    iprop(ins c M0 M1 M2 M3 M4 x0 x1 w1 w2 vs ∗ (∃ d, owns (c : Thread nD τ) M5 fullShare d) ∗ owns (c : Thread nD τ) accM fullShare a
      ∗ (iprop(ins c M0 M1 M2 M3 M4 x0 x1 w1 w2 vs ∗ owns (c : Thread nD τ) M5 fullShare (outv (stepv x0 x1 w1 w2 a) vs)
            ∗ owns (c : Thread nD τ) accM fullShare (stepv x0 x1 w1 w2 a)) -∗ Q ⟨⟩))
      ⊢ wp frame (wpE (defs₀ (F := F)) Variants.none c none) Set.univ BODY Q := by
  unfold ins owns
  iintro ⟨⟨⟨%f0, %hf0, H0⟩, ⟨%f1, %hf1, H1⟩, ⟨%f2, %hf2, H2⟩, ⟨%f3, %hf3, H3⟩, ⟨%f4, %hf4, H4⟩⟩, ⟨%d5, %f5, %hf5, H5⟩, ⟨%fa, %hfa, Ha⟩, Hk⟩
  subst hf0 hf1 hf2 hf3 hf4 hfa
  sl_exec! (disch := assumption)
  sl_step
  iapply Hk
  isplitl [H0 H1 H2 H3 H4]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    iexists f4; isplitr; (· ipureintro; rfl); iexact H4
  isplitl [H5]
  · iexists _; isplitr; swap; (· iexact H5); ipureintro
    refine (View.read_writes_eq_canon _ _ _ ?_).trans ?_
    · unfold run_last.sl.H5_1; exact fun y => ⟨_, List.mem_singleton_self _, View.mem_set_unit_zero z3 inb_S1x128x256_S1x128x256_0_0_0 y⟩
    · unfold run_last.sl.H5_1
      refine (View.canon_unit_zero z3 inb_S1x128x256_S1x128x256_0_0_0 _).trans ?_
      unfold run_last.sl.v32 run_last.sl.Ha_1
      rw [View.readCov_unit_zero (S := S128x256) accM.view z2 inb_S128x256_S128x256_0_0, readAt_whole (S := S128x256) accM.view z2 inb_S128x256_S128x256_0_0 fa,
        readAt_whole (S := S128x256) M4.view z2 inb_S128x256_S128x256_0_0 f4, pay2_whole M0 M1 M2 M3 f0 f1 f2 f3]
  iexists _; isplitr; swap; (· iexact Ha); ipureintro
  refine (View.read_writes_eq_canon _ _ _ ?_).trans ?_
  · unfold run_last.sl.Ha_1; exact fun y => ⟨_, List.mem_singleton_self _, View.mem_set_unit_zero z2 inb_S128x256_S128x256_0_0 y⟩
  · unfold run_last.sl.Ha_1
    refine (View.canon_unit_zero z2 inb_S128x256_S128x256_0_0 _).trans ?_
    rw [readAt_whole (S := S128x256) accM.view z2 inb_S128x256_S128x256_0_0 fa]
    exact pay2_whole M0 M1 M2 M3 f0 f1 f2 f3 _

end Runs

end Cert.Proof.KI

end
-- ==== Proof.IdealData.lean ====
/- The idealized kernel's pipeline: what the region finds, what each grid point leaves, and the body obligation.

   @main reshapes the input to [8, 256, 192] and runs one region of 64 points (8 batches × 2 row tiles × 4 reduction
   steps, the reduction step moving fastest). The reshaped array is read through two windows (a 128-row query tile and
   the whole 256-row key block of the batch), the two weight matrices through 64-row windows moved by the reduction step,
   the bias through a 128-row window moved by the row tile; the output's 128-row block is written back after each row
   tile's last step. Between points the scratch carries the running sum: before a row tile's first step it holds anything,
   before any other step what the previous point left (`accA`, by recursion on the point). -/
import proofs.«172554_j54065048322469_1_alg».proof.Proof.IdealStep
import proofs.«172554_j54065048322469_1_alg».proof.Proof.Gen.KernelIdeal.Points
import Idealize.ShloMosaic.Lib.Pipeline.Frame
import Idealize.ShloMosaic.Lib.Pipeline.FrameBody

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers when the region is entered: after the reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four arguments: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The five input blocks at a point, at their literal types: the query tile, the key block, the two weight tiles, the bias tile. -/
abbrev xq (c : Dev nD) (t : Fin cfg0.N) : Vec F S1x128x192 .f32 := iblk m c 0 t
abbrev xk (c : Dev nD) (t : Fin cfg0.N) : Vec F S1x256x192 .f32 := iblk m c 1 t
abbrev wa (c : Dev nD) (t : Fin cfg0.N) : Vec F S64x192 .f32 := iblk m c 2 t
abbrev wb (c : Dev nD) (t : Fin cfg0.N) : Vec F S64x192 .f32 := iblk m c 3 t
abbrev vb (c : Dev nD) (t : Fin cfg0.N) : Vec F S128x256 .f32 := iblk m c 4 t

/-! ## The kinds of point -/

/-- A point is a row tile's first step iff its number is ≡ 0 (mod 4), its last iff ≡ 3. -/
theorem isFirst_iff : ∀ t : Fin cfg0.N, IsFirst t ↔ t.val % 4 = 0 :=
  (by decide +kernel : ∀ t : Fin grid0.N,
    (Scalar.cmpi .ne (Scalar.extui (Scalar.cmpi .eq (BitVec.ofNat 32 ((grid0.coords t) 2).val) 0#32)) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-! ## The scratch after each point -/

/-- The scratch after point `k` of core `c`'s run: a first step leaves `firstv` of the point's blocks, any other
    `stepv` of them and the previous contents. -/
def accA (c : Dev nD) : (k : ℕ) → k < cfg0.N → Vec F S128x256 .f32
  | 0, hk => firstv (xq m c ⟨0, hk⟩) (xk m c ⟨0, hk⟩) (wa m c ⟨0, hk⟩) (wb m c ⟨0, hk⟩)
  | k + 1, hk =>
    if (k + 1) % 4 = 0 then firstv (xq m c ⟨k + 1, hk⟩) (xk m c ⟨k + 1, hk⟩) (wa m c ⟨k + 1, hk⟩) (wb m c ⟨k + 1, hk⟩)
    else stepv (xq m c ⟨k + 1, hk⟩) (xk m c ⟨k + 1, hk⟩) (wa m c ⟨k + 1, hk⟩) (wb m c ⟨k + 1, hk⟩) (accA c k (Nat.lt_of_succ_lt hk))

theorem accA_first (c : Dev nD) (t : Fin cfg0.N) (h : t.val % 4 = 0) :
    accA m c t.val t.isLt = firstv (xq m c t) (xk m c t) (wa m c t) (wb m c t) := by
  obtain ⟨k, hk⟩ := t
  cases k with
  | zero => rfl
  | succ k => show (if (k + 1) % 4 = 0 then _ else _) = _; rw [if_pos h]

theorem accA_step (c : Dev nD) (t : Fin cfg0.N) (h : t.val % 4 ≠ 0) (hp : t.val - 1 < cfg0.N) :
    accA m c t.val t.isLt = stepv (xq m c t) (xk m c t) (wa m c t) (wb m c t) (accA m c (t.val - 1) hp) := by
  obtain ⟨k, hk⟩ := t
  cases k with
  | zero => exact absurd rfl h
  | succ k => show (if (k + 1) % 4 = 0 then _ else _) = _; rw [if_neg h]; rfl

/-- The scratch BEFORE a point that is not a row tile's first: what the previous point left. -/
abbrev accB (c : Dev nD) (t : Fin cfg0.N) (h : t.val % 4 ≠ 0) : Vec F S128x256 .f32 :=
  accA m c (t.val - 1) (by have := t.isLt; omega)

/-- The block a point leaves in the output's staging buffer (consulted at last steps only): the softmax block of the
    scratch it has just written and the bias tile. -/
def outAt (c : Dev nD) (t : Fin cfg0.N) : Vec F S1x128x256 .f32 := outv (accA m c t.val t.isLt) (vb m c t)

/-! ## The proof data -/

/-- The invariant before point `k` (k = 0 … 64): the scratch at anything before a row tile's first step and after the
    last point, else at what the previous point left. -/
def Φv (c : Dev nD) (k : Fin (cfg0.N + 1)) : sProp 𝕄 :=
  if h : k.val % 4 = 0 then iprop(∃ a, owns (c : Thread nD τ) accM fullShare a)
  else iprop(owns (c : Thread nD τ) accM fullShare (accA m c (k.val - 1) (by have := k.isLt; omega)))

/-- The proof data of the pipeline on core `c`: the arrays as the region finds them; each input's buffer left at its
    block, the output's at `outAt`; the invariant `Φv`; the reshaped array shared half and half between its two windows,
    every other array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := Φv m c k
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

abbrev 𝒱₀ : Variants := Variants.none

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- The output's window is idle except at a last step, and written back exactly there. -/
theorem idle5_of_last (t : Fin cfg0.N) (h : IsLast t) : idle0 5 (grid0.coords t) = false := by
  show (!(k0_cond2 (grid0.coords t) == 1#1)) = false; rw [show (k0_cond2 (grid0.coords t) == 1#1) = true from beq_iff_eq.mpr h]; rfl
theorem idle5_of_not_last (t : Fin cfg0.N) (h : ¬ IsLast t) : idle0 5 (grid0.coords t) = true := by
  show (!(k0_cond2 (grid0.coords t) == 1#1)) = true; rw [show (k0_cond2 (grid0.coords t) == 1#1) = false from beq_eq_false_iff_ne.mpr h]; rfl
theorem flush5_of_last (t : Fin cfg0.N) (h : IsLast t) : (cfg0.win 5).flush t = true := (flush0_5 t).mpr ((isLast_iff t).mp h)
theorem flush5_of_not_last (t : Fin cfg0.N) (h : ¬ IsLast t) : (cfg0.win 5).flush t = false :=
  Bool.eq_false_iff.mpr fun hf => h ((isLast_iff t).mpr ((flush0_5 t).mp hf))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 4 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 4 = 3) :
    (dats m 0 c).Φ t.succ = iprop(∃ a, owns (c : Thread nD τ) accM fullShare a) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) accM fullShare (accA m c t.val t.isLt)) := by
  show Φv m c _ = _; unfold Φv; rw [dif_neg (by show ¬ (t.val + 1) % 4 = 0; omega)]; rfl

end Cert.Proof.KI

end
-- ==== Proof.IdealLaunch.lean ====
/- The idealized kernel's run: the body obligation at every point and the launch of the one region.

   The reshaped input is handed to the region through two windows, so the launch deals its buffer half and half between
   them; every other array is held whole. The kernel has no semaphore of its own; its scratch is the only scoped buffer
   besides the staging buffers and enters and leaves the invariant at any contents. -/
import proofs.«172554_j54065048322469_1_alg».proof.Proof.IdealData
import Idealize.ShloMosaic.Lib.Pipeline.Kit
import Idealize.ShloMosaic.Lib.Pipeline.Frame

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

theorem idle_0 (t : Fin cfg0.N) : idle0 0 (grid0.coords t) = false := rfl
theorem idle_1 (t : Fin cfg0.N) : idle0 1 (grid0.coords t) = false := rfl
theorem idle_2 (t : Fin cfg0.N) : idle0 2 (grid0.coords t) = false := rfl
theorem idle_3 (t : Fin cfg0.N) : idle0 3 (grid0.coords t) = false := rfl
theorem idle_4 (t : Fin cfg0.N) : idle0 4 (grid0.coords t) = false := rfl

/-- The library's body obligation at every point, by the point's kind: the run of that kind applied between the
    invariant's two forms; the output's staging buffer passed through at an idle step, at what the step stored at a
    last one. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hL : IsLast t
  · -- a last step: not a first one
    have h3 : t.val % 4 = 3 := (isLast_iff t).mp hL
    have hF : ¬ IsFirst t := fun h => by have := (isFirst_iff t).mp h; omega
    simp only [idle_0, idle_1, idle_2, idle_3, idle_4, idle5_of_last t hL, flush5_of_last t hL,
      before0, before1, before2, before3, before4, after0, after1, after2, after3, after4, after5]
    rw [Φ_pre_other m c t (by omega), Φ_post_last m c t h3,
      show outAt m c t = outv (stepv (xq m c t) (xk m c t) (wa m c t) (wb m c t) (accB m c t (by omega))) (vb m c t) from by
        unfold outAt; rw [accA_step m c t (by omega)]]
    iintro ⟨Ha, ⟨%Wt, %hW, HO⟩, ⟨%d0, H0⟩, ⟨%d1, H1⟩, ⟨%d2, H2⟩, ⟨%d3, H3⟩, ⟨%d4, H4⟩, ⟨%d5, H5⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (xq m c t) (xk m c t) (wa m c t) (wb m c t) (vb m c t) (accB m c t (by omega)) hF hL)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [Ha]; · iexact Ha
    iintro ⟨⟨H0, H1, H2, H3, H4⟩, H5, Ha⟩
    isplitl [Ha]; · iexists _; iexact Ha
    isplitl [HO]; · iapply (owesAt_intro m c); iexact HO
    isplitl [H0]; · iexact H0
    isplitl [H1]; · iexact H1
    isplitl [H2]; · iexact H2
    isplitl [H3]; · iexact H3
    isplitl [H4]; · iexact H4
    iexact H5
  · simp only [idle_0, idle_1, idle_2, idle_3, idle_4, idle5_of_not_last t hL, flush5_of_not_last t hL,
      before0, before1, before2, before3, before4, after0, after1, after2, after3, after4, after5]
    by_cases hF : IsFirst t
    · -- a first step
      have h0 : t.val % 4 = 0 := (isFirst_iff t).mp hF
      rw [Φ_pre_first m c t h0, Φ_post_other m c t (by omega), accA_first m c t h0]
      iintro ⟨Ha, ⟨%Wt, %hW, HO⟩, ⟨%d0, H0⟩, ⟨%d1, H1⟩, ⟨%d2, H2⟩, ⟨%d3, H3⟩, ⟨%d4, H4⟩, H5⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (xq m c t) (xk m c t) (wa m c t) (wb m c t) (vb m c t) hF hL _)
      isplitl [H0 H1 H2 H3 H4]
      · isplitl [H0]; · iexact H0
        isplitl [H1]; · iexact H1
        isplitl [H2]; · iexact H2
        isplitl [H3]; · iexact H3
        iexact H4
      isplitl [H5]; · iexact H5
      isplitl [Ha]; · iexact Ha
      iintro ⟨⟨H0, H1, H2, H3, H4⟩, H5, Ha⟩
      isplitl [Ha]; · iexact Ha
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · -- a middle step
      have h1 : t.val % 4 ≠ 0 := fun h => hF ((isFirst_iff t).mpr h)
      have h2 : t.val % 4 ≠ 3 := fun h => hL ((isLast_iff t).mpr h)
      rw [Φ_pre_other m c t h1, Φ_post_other m c t h2, accA_step m c t h1]
      iintro ⟨Ha, ⟨%Wt, %hW, HO⟩, ⟨%d0, H0⟩, ⟨%d1, H1⟩, ⟨%d2, H2⟩, ⟨%d3, H3⟩, ⟨%d4, H4⟩, H5⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (xq m c t) (xk m c t) (wa m c t) (wb m c t) (vb m c t) (accB m c t h1) hF hL _)
      isplitl [H0 H1 H2 H3 H4]
      · isplitl [H0]; · iexact H0
        isplitl [H1]; · iexact H1
        isplitl [H2]; · iexact H2
        isplitl [H3]; · iexact H3
        iexact H4
      isplitl [H5]; · iexact H5
      isplitl [Ha]; · iexact Ha
      iintro ⟨⟨H0, H1, H2, H3, H4⟩, H5, Ha⟩
      isplitl [Ha]; · iexact Ha
      isplitl [HO]; · iapply (owesAt_intro m c); iexact HO
      isplitl [H0]; · iexact H0
      isplitl [H1]; · iexact H1
      isplitl [H2]; · iexact H2
      isplitl [H3]; · iexact H3
      isplitl [H4]; · iexact H4
      iexact H5

end Cert.Proof.KI

end
-- ==== Proof.IdealShare.lean ====
/- How the launch deals the region's arrays to the pipeline's windows.

   The buffers behind the windows' arrays are five: the reshaped input, the two weight matrices, the bias and the output.
   The reshaped input is read through two windows, which hold it at the two halves of the full share; each other buffer
   belongs to one window, which holds it whole. -/
import proofs.«172554_j54065048322469_1_alg».proof.Proof.IdealData
import Idealize.ShloMosaic.Lib.Pipeline.Kit

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- The share each window holds its array at: the reshaped input's two windows hold the two halves, every other window the whole. -/
theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

/-- A window's array at entry, through its own view at the window's share, is the buffer behind it held whole at that
    share at the region-entry contents: the array is a whole buffer, so its view holds every element. -/
theorem win_eq (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]
  show (_ ↦{q} (dats m 0 c).A w : sProp 𝕄) = _
  rw [A_eq]

/-- The distinct buffers behind the arrays, each whole at the full share at the region-entry contents, make the
    pipeline's arrays at entry: the reshaped input split between its two windows, the rest one to one. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v0, main_arg1, main_arg2, main_arg3, main_v1] (by decide) (by decide)]
  rw [bigSep_W0]
  rw [win_eq m c 0 _ (share0 m c), win_eq m c 1 _ (share1 m c), win_eq m c 2 _ (share2 m c), win_eq m c 3 _ (share3 m c),
    win_eq m c 4 _ (share4 m c), win_eq m c 5 _ (share5 m c)]
  show iprop((((c.tc : Thread nD τ).loc main_v0) ↦{fullShare} V m c main_v0 : sProp 𝕄) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_v1) ↦{fullShare} V m c main_v1)) ⊢ _
  refine (sep_mono_left (pointsTo_share (PosShare.mem_left_op_right fullShare)).1).trans ?_
  iintro ⟨⟨H0, H1⟩, H2, H3, H4, H5⟩
  isplitl [H0]; · iexact H0
  isplitl [H1]; · iexact H1
  isplitl [H2]; · iexact H2
  isplitl [H3]; · iexact H3
  isplitl [H4]; · iexact H4
  iexact H5

end Cert.Proof.KI

end
-- ==== Proof.IdealRun.lean ====
/- The idealized kernel's run from launch to return.

   Every weakly fair execution of @main terminates; the output array ends at the pipeline's account of its window and the
   four arguments end as launched: the weight matrices and the bias are input windows' arrays, never written; the
   original input is no window's array and bypasses the region. -/
import proofs.«172554_j54065048322469_1_alg».proof.Proof.IdealLaunch
import proofs.«172554_j54065048322469_1_alg».proof.Proof.IdealShare
import Idealize.ShloMosaic.Lib.Pipeline.Kit
import Idealize.ShloMosaic.Lib.Pipeline.Frame

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region finds the reshaped input: the argument read in row-major order at the new shape. -/
theorem V_main_v0 (c : Dev nD) :
    (V m c main_v0 : Vec F S8x256x192 .f32)
      = shapeCast S8x256x192 (m ((c.tc : Thread nD τ).loc main_arg0)) shapeCasts_S8x256x16x12_S8x256x192 := by
  dsimp only [V, hostOps0]; after_results; rfl

/-- Before the first point and after the last the scratch holds anything. -/
theorem Φ_zero (c : Dev nD) : (dats m 0 c).Φ 0 = iprop(∃ a, owns (c : Thread nD τ) accM fullShare a) := by
  dsimp only [dats]; unfold Φv; exact dif_pos (by decide)
theorem Φ_last (c : Dev nD) : (dats m 0 c).Φ (Fin.last cfg0.N) = iprop(∃ a, owns (c : Thread nD τ) accM fullShare a) := by
  dsimp only [dats]; unfold Φv; exact dif_pos (by decide)

/-- The scoped rest — the scratch at some contents — is the invariant before the first point, -/
theorem hin (c : Dev nD) : iprop((emp : sProp 𝕄) ∗ Pipeline.scopedRest spec0 c) ⊢ (dats m 0 c).Φ 0 := by
  rw [Φ_zero, scopedRest0_eq]
  iintro ⟨-, ⟨%f, Hf⟩⟩
  iexists f; rw [owns_whole_eq]; iexists f; isplitr; (· ipureintro; rfl); iexact Hf

/-- and the invariant after the last point gives it back. -/
theorem hout (c : Dev nD) : (dats m 0 c).Φ (Fin.last cfg0.N) ⊢ iprop((emp : sProp 𝕄) ∗ Pipeline.scopedRest spec0 c) := by
  rw [Φ_last, scopedRest0_eq]; simp only [owns_whole_eq]
  iintro ⟨%a, %f, %hf, Hf⟩
  isplitr; · iempintro
  iexists f; iexact Hf

set_option backward.isDefEq.respectTransparency.types false in
/-- THE RUN: from any memory with zero counters every weakly fair execution of @main on the TensorCores terminates; the
    output array ends at the pipeline's account of the write-backs and the arguments as launched. -/
theorem run_main : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m 𝒱₀) (hsplit := hsplit m)
    (X := fun _ => iprop(emp)) (Y := fun _ => iprop(emp)) (Z := fun c => Pipeline.unscopedRest spec0 c (V m c))
    (hX := fun c => by iintro H; isplitr; (· iempintro); iexact H)
    (hin := hin m) (hout := hout m)
    (QY := fun c s => s.mem ((c.tc : Thread nD τ).loc main_arg0) = V m c main_arg0)
    (hY := fun c s' => by
      rw [unscopedRest0_eq]
      iintro ⟨-, HU, HSI⟩
      icombine HSI HU gives %h
      imodintro
      isplitr
      · ipureintro; exact Buf.eq_of_forall_mem_univ h
      · iexact HSI)
    (hQ := fun s h c => ⟨(h c).1 5,
      (h c).2.trans (V_main_arg0 m c),
      ((h c).1 2).trans (((dats m 0 c).arrAt_in 2 rfl _).trans (V_main_arg1 m c)),
      ((h c).1 3).trans (((dats m 0 c).arrAt_in 3 rfl _).trans (V_main_arg2 m c)),
      ((h c).1 4).trans (((dats m 0 c).arrAt_in 4 rfl _).trans (V_main_arg3 m c))⟩)

end Cert.Proof.KI

end
-- ==== Proof.IdealBlocks.lean ====
/- The windows' blocks read at explicit coordinates.

   Point `t` of the 64-point grid is batch `t / 8`, row tile `(t / 4) % 2`, reduction step `t % 4`. The query tile at `t`
   is rows `128·tile …` of the batch's reshaped input, the key block all 256 rows of it, the weight tiles rows `64·step …`
   of the two weight matrices, the bias tile rows `128·tile …` of the bias. -/
import proofs.«172554_j54065048322469_1_alg».proof.Proof.IdealData
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ)

theorem lt64 (t : Fin cfg0.N) : t.val < 64 := N_0 ▸ t.isLt

/-- The batch, the row tile and the reduction step of point `t`. -/
def bOf (t : Fin cfg0.N) : Fin 8 := ⟨t.val / 8, by have := lt64 t; omega⟩
def iOf (t : Fin cfg0.N) : Fin 2 := ⟨(t.val / 4) % 2, by omega⟩
def kOf (t : Fin cfg0.N) : Fin 4 := ⟨t.val % 4, by omega⟩

/-- Row `p` of row tile `i`; weight row `k` of reduction step `s`. -/
def rowOf (i : Fin 2) (p : Fin 128) : Fin 256 := ⟨128 * i.val + p.val, by omega⟩
def wrowOf (s : Fin 4) (k : Fin 64) : Fin 256 := ⟨64 * s.val + k.val, by omega⟩

/-- The region's arrays at their literal shapes. -/
abbrev Xf (c : Dev nD) : Vec F S8x256x192 .f32 := V m c main_v0
abbrev Wa (c : Dev nD) : Vec F S256x192 .f32 := V m c main_arg1
abbrev Wb (c : Dev nD) : Vec F S256x192 .f32 := V m c main_arg2
abbrev Bs (c : Dev nD) : Vec F S256x256 .f32 := V m c main_arg3

/-! ## The windows' block indices at a point, decided over the 64 points -/

theorem idxQ : ∀ t : Fin cfg0.N, win0_0.index t (0 : Fin 3) = t.val / 8 ∧ win0_0.index t (1 : Fin 3) = (t.val / 4) % 2
    ∧ win0_0.index t (2 : Fin 3) = 0 :=
  (by decide +kernel : ∀ t : Fin grid0.N, _)
theorem idxK : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem idxA : ∀ t : Fin cfg0.N, win0_2.index t (0 : Fin 2) = t.val % 4 ∧ win0_2.index t (1 : Fin 2) = 0 :=
  (by decide +kernel : ∀ t : Fin grid0.N, _)
theorem idxB : ∀ t : Fin cfg0.N, win0_3.index t (0 : Fin 2) = t.val % 4 ∧ win0_3.index t (1 : Fin 2) = 0 :=
  (by decide +kernel : ∀ t : Fin grid0.N, _)
theorem idxV : ∀ t : Fin cfg0.N, win0_4.index t (0 : Fin 2) = (t.val / 4) % 2 ∧ win0_4.index t (1 : Fin 2) = 0 :=
  (by decide +kernel : ∀ t : Fin grid0.N, _)

/-! ## Each block at explicit coordinates: a block's coordinate is its index times the block's extent plus the coordinate inside -/

theorem xq_apply (c : Dev nD) (t : Fin cfg0.N) (p : Fin 128) (f : Fin 192) :
    xq m c t (ix3 (0 : Fin 1) p f) = Xf m c (ix3 (bOf t) (rowOf (iOf t) p) f) := by
  obtain ⟨e0, e1, e2⟩ := idxQ t
  show V m c main_v0 (((cfg0.win 0).blk t).view.emb (ix3 (0 : Fin 1) p f)) = V m c main_v0 (ix3 (bOf t) (rowOf (iOf t) p) f)
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 128 + 1 * p.val = 128 * ((t.val / 4) % 2) + p.val; omega
  | ⟨2, _⟩ => show win0_0.index t (2 : Fin 3) * 192 + 1 * f.val = f.val; omega

theorem xk_apply (c : Dev nD) (t : Fin cfg0.N) (q : Fin 256) (f : Fin 192) :
    xk m c t (ix3 (0 : Fin 1) q f) = Xf m c (ix3 (bOf t) q f) := by
  obtain ⟨e0, e1, e2⟩ := idxK t
  show V m c main_v0 (((cfg0.win 1).blk t).view.emb (ix3 (0 : Fin 1) q f)) = V m c main_v0 (ix3 (bOf t) q f)
  refine congrArg (V m c main_v0) (funext fun a => Fin.ext ?_)
  match a with
  | ⟨0, _⟩ => show win0_1.index t (0 : Fin 3) * 1 + 1 * 0 = t.val / 8; omega
  | ⟨1, _⟩ => show win0_1.index t (1 : Fin 3) * 256 + 1 * q.val = q.val; omega
  | ⟨2, _⟩ => show win0_1.index t (2 : Fin 3) * 192 + 1 * f.val = f.val; omega

theorem wa_apply (c : Dev nD) (t : Fin cfg0.N) (k : Fin 64) (f : Fin 192) :
    wa m c t (ix2 k f) = Wa m c (ix2 (wrowOf (kOf t) k) f) := by
  obtain ⟨e0, e1⟩ := idxA t
  show V m c main_arg1 (((cfg0.win 2).blk t).view.emb (ix2 k f)) = V m c main_arg1 (ix2 (wrowOf (kOf t) k) f)
  refine congrArg (V m c main_arg1) (funext fun a => Fin.ext ?_)
  match a with
  | ⟨0, _⟩ => show win0_2.index t (0 : Fin 2) * 64 + 1 * k.val = 64 * (t.val % 4) + k.val; omega
  | ⟨1, _⟩ => show win0_2.index t (1 : Fin 2) * 192 + 1 * f.val = f.val; omega

theorem wb_apply (c : Dev nD) (t : Fin cfg0.N) (k : Fin 64) (f : Fin 192) :
    wb m c t (ix2 k f) = Wb m c (ix2 (wrowOf (kOf t) k) f) := by
  obtain ⟨e0, e1⟩ := idxB t
  show V m c main_arg2 (((cfg0.win 3).blk t).view.emb (ix2 k f)) = V m c main_arg2 (ix2 (wrowOf (kOf t) k) f)
  refine congrArg (V m c main_arg2) (funext fun a => Fin.ext ?_)
  match a with
  | ⟨0, _⟩ => show win0_3.index t (0 : Fin 2) * 64 + 1 * k.val = 64 * (t.val % 4) + k.val; omega
  | ⟨1, _⟩ => show win0_3.index t (1 : Fin 2) * 192 + 1 * f.val = f.val; omega

theorem vb_apply (c : Dev nD) (t : Fin cfg0.N) (p : Fin 128) (q : Fin 256) :
    vb m c t (ix2 p q) = Bs m c (ix2 (rowOf (iOf t) p) q) := by
  obtain ⟨e0, e1⟩ := idxV t
  show V m c main_arg3 (((cfg0.win 4).blk t).view.emb (ix2 p q)) = V m c main_arg3 (ix2 (rowOf (iOf t) p) q)
  refine congrArg (V m c main_arg3) (funext fun a => Fin.ext ?_)
  match a with
  | ⟨0, _⟩ => show win0_4.index t (0 : Fin 2) * 128 + 1 * p.val = 128 * ((t.val / 4) % 2) + p.val; omega
  | ⟨1, _⟩ => show win0_4.index t (1 : Fin 2) * 256 + 1 * q.val = q.val; omega

end Cert.Proof.KI

end
-- ==== Proof.Spec.lean ====
/- The function both programs compute, one output entry at a time, over the extended reals.

   With `x` the input reshaped to [8, 256, 192] (batch, node, feature) and `W1`, `W2` of shape [256, 192]:
   node `n` of batch `b` is projected on row `k` of a weight matrix (`proj`), the pair score of nodes `i`, `j`
   at `k` is the logistic of the two projections' sum (`pair`), the logit of `(i, j)` is the sum of the pair scores
   over all 256 `k` plus the bias `Vs i j` (`logit`), and the result is the softmax of each logit row over `j`
   (`softmaxRow`: the row shifted by its maximum, taken from minus infinity upwards, exponentiated and normalised). -/
import Idealize.ShloMosaic.PureOps.Ideal
import Idealize.ShloMosaic.Lib.ValueIdx

noncomputable section

open scoped BigOperators

namespace Cert.Proof.Spec

open Idealize.ShloMosaic Idealize.ShloMosaic.ValueIdx

abbrev SX : Shape := ⟨3, ![8, 256, 192]⟩
abbrev SW : Shape := ⟨2, ![256, 192]⟩
abbrev SV : Shape := ⟨2, ![256, 256]⟩
abbrev SO : Shape := ⟨3, ![8, 256, 256]⟩

/-- Minus infinity, as the float word both programs start a maximum from. -/
abbrev ninf : EReal := Ideal.ofBits .f32 0xFF800000#32

/-- Node `n` of batch `b` projected on row `k` of `W`: the dot product over the 192 features. -/
def proj (xf : SX.Idx → EReal) (W : SW.Idx → EReal) (b : Fin 8) (n k : Fin 256) : EReal :=
  ∑ f : Fin 192, xf (ix3 b n f) * W (ix2 k f)

/-- The pair score of nodes `i` and `j` at `k`. -/
def pair (xf : SX.Idx → EReal) (W1 W2 : SW.Idx → EReal) (b : Fin 8) (i j k : Fin 256) : EReal :=
  Ideal.logistic (proj xf W1 b i k + proj xf W2 b j k)

/-- The logit of `(i, j)`: all 256 pair scores summed, plus the bias. -/
def logit (xf : SX.Idx → EReal) (W1 W2 : SW.Idx → EReal) (Vs : SV.Idx → EReal) (b : Fin 8) (i j : Fin 256) : EReal :=
  (∑ k : Fin 256, pair xf W1 W2 b i j k) + Vs (ix2 i j)

/-- The maximum of a row, taken from minus infinity upwards (and once more against minus infinity, as both programs do). -/
def rowMax (row : Fin 256 → EReal) : EReal :=
  max ninf ((Finset.univ : Finset (Fin 256)).fold max ninf row)

/-- The softmax of a row at `j`. -/
def softmaxRow (row : Fin 256 → EReal) (j : Fin 256) : EReal :=
  Ideal.div (Ideal.exp (row j - rowMax row)) (∑ j' : Fin 256, Ideal.exp (row j' - rowMax row))

/-- The result, entry by entry. -/
def G (xf : SX.Idx → EReal) (W1 W2 : SW.Idx → EReal) (Vs : SV.Idx → EReal) : SO.Idx → EReal :=
  fun y => softmaxRow (fun j' => logit xf W1 W2 Vs (y 0) (y 1) j') (y 2)

theorem G_apply (xf : SX.Idx → EReal) (W1 W2 : SW.Idx → EReal) (Vs : SV.Idx → EReal) (b : Fin 8) (i j : Fin 256) :
    G xf W1 W2 Vs (ix3 b i j) = softmaxRow (fun j' => logit xf W1 W2 Vs b i j') j := rfl

/-- A sum over 256 terms, taken in four runs of 64 accumulated from zero:
    the order in which the kernel adds the pair scores (addition of extended reals is commutative and associative,
    so no finiteness is needed). -/
theorem sum_four_runs (f : Fin 256 → EReal) :
    ((((0 + ∑ k : Fin 64, f ⟨k.val, by omega⟩) + ∑ k : Fin 64, f ⟨64 + k.val, by omega⟩)
        + ∑ k : Fin 64, f ⟨128 + k.val, by omega⟩) + ∑ k : Fin 64, f ⟨192 + k.val, by omega⟩)
      = ∑ k : Fin 256, f k := by
  rw [zero_add]
  have h1 := Fin.sum_univ_add (a := 192) (b := 64) f
  have h2 := Fin.sum_univ_add (a := 128) (b := 64) (fun i : Fin 192 => f (Fin.castAdd 64 i))
  have h3 := Fin.sum_univ_add (a := 64) (b := 64) (fun i : Fin 128 => f (Fin.castAdd 64 (Fin.castAdd 64 i)))
  exact (h1.trans (congrArg (· + _) (h2.trans (congrArg (· + _) h3)))).symm

end Cert.Proof.Spec

end
-- ==== Proof.IdealPayload.lean ====
/- The idealized kernel's three stored values read at one entry, over the extended reals.

   The zero block is zero; a step's new scratch at `(p, q)` is the old one there plus the sum, over the step's 64 weight
   rows `k`, of the logistic of (row `p` of the query block · row `k` of the first weight block) + (row `q` of the key block ·
   row `k` of the second weight block); the output block at `(p, q)` is the softmax over `q` of scratch + bias, row `p`. -/
import proofs.«172554_j54065048322469_1_alg».proof.Proof.Gen.KernelIdeal
import proofs.«172554_j54065048322469_1_alg».proof.Proof.Gen.KernelIdeal.Skeleton
import proofs.«172554_j54065048322469_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Proof.KI

open Cert.KernelIdeal Cert.KernelIdeal.Gen
open Idealize.ShloMosaic Idealize.ShloMosaic.ValueIdx

/-! ## The two products read at an entry -/

theorem lhsA_0 (i : S128x64.Idx) (c : dot_S128x192_S192x64_S128x64_1_0_0_1_n_n.contr.Idx) :
    (dot_S128x192_S192x64_S128x64_1_0_0_1_n_n.lhsIdx i c 0).val = (i 0).val := by
  unfold DotDims.lhsIdx
  rw [dif_neg (show ¬(0 : Fin S128x192.rank) ∈ dot_S128x192_S192x64_S128x64_1_0_0_1_n_n.lhsBatch by decide),
    dif_pos (show (0 : Fin S128x192.rank) ∈ dot_S128x192_S192x64_S128x64_1_0_0_1_n_n.lhsNonContracting by decide)]
  rfl
theorem lhsA_1 (i : S128x64.Idx) (c : dot_S128x192_S192x64_S128x64_1_0_0_1_n_n.contr.Idx) :
    (dot_S128x192_S192x64_S128x64_1_0_0_1_n_n.lhsIdx i c 1).val = (c ⟨0, by decide⟩).val :=
  dot_S128x192_S192x64_S128x64_1_0_0_1_n_n.lhsIdx_val_of_single rfl i c
theorem rhsA_0 (i : S128x64.Idx) (c : dot_S128x192_S192x64_S128x64_1_0_0_1_n_n.contr.Idx) :
    (dot_S128x192_S192x64_S128x64_1_0_0_1_n_n.rhsIdx i c 0).val = (c ⟨0, by decide⟩).val :=
  dot_S128x192_S192x64_S128x64_1_0_0_1_n_n.rhsIdx_val_of_single rfl i c
theorem rhsA_1 (i : S128x64.Idx) (c : dot_S128x192_S192x64_S128x64_1_0_0_1_n_n.contr.Idx) :
    (dot_S128x192_S192x64_S128x64_1_0_0_1_n_n.rhsIdx i c 1).val = (i 1).val := by
  unfold DotDims.rhsIdx
  rw [dif_neg (show ¬(1 : Fin S192x64.rank) ∈ dot_S128x192_S192x64_S128x64_1_0_0_1_n_n.rhsBatch by decide),
    dif_pos (show (1 : Fin S192x64.rank) ∈ dot_S128x192_S192x64_S128x64_1_0_0_1_n_n.rhsNonContracting by decide)]
  rfl

/-- A [128,192] × [192,64] product into the zero block, at `(p, k)`: the sum over the 192 shared positions. -/
theorem mmA_apply {φ₁ φ₂ : FTy} (A : FVec Ideal S128x192 φ₁) (B : FVec Ideal S192x64 φ₂) (p : Fin 128) (k : Fin 64) :
    matmul dot_S128x192_S192x64_S128x64_1_0_0_1_n_n none A B (constant (F := Ideal) S128x64 .f32 0x00000000#32) (ix2 p k)
      = ∑ f : Fin 192, A (ix2 p f) * B (ix2 f k) := by
  refine (Ideal.matmul_constant_zero_apply dot_S128x192_S192x64_S128x64_1_0_0_1_n_n none A B (ix2 p k)).trans ?_
  rw [← Equiv.sum_comp (contrEquiv1 dot_S128x192_S192x64_S128x64_1_0_0_1_n_n 192 rfl rfl).symm]
  refine Finset.sum_congr rfl fun f _ => ?_
  have hk := contrEquiv1_symm_val dot_S128x192_S192x64_S128x64_1_0_0_1_n_n 192 rfl rfl f
  have el : dot_S128x192_S192x64_S128x64_1_0_0_1_n_n.lhsIdx (ix2 p k)
      ((contrEquiv1 dot_S128x192_S192x64_S128x64_1_0_0_1_n_n 192 rfl rfl).symm f) = ix2 p f :=
    funext fun a => Fin.ext (by
      match a with
      | ⟨0, _⟩ => exact lhsA_0 _ _
      | ⟨1, _⟩ => exact (lhsA_1 _ _).trans hk)
  have er : dot_S128x192_S192x64_S128x64_1_0_0_1_n_n.rhsIdx (ix2 p k)
      ((contrEquiv1 dot_S128x192_S192x64_S128x64_1_0_0_1_n_n 192 rfl rfl).symm f) = ix2 f k :=
    funext fun a => Fin.ext (by
      match a with
      | ⟨0, _⟩ => exact (rhsA_0 _ _).trans hk
      | ⟨1, _⟩ => exact rhsA_1 _ _)
  rw [el, er]

theorem lhsB_0 (i : S256x64.Idx) (c : dot_S256x192_S192x64_S256x64_1_0_0_1_n_n.contr.Idx) :
    (dot_S256x192_S192x64_S256x64_1_0_0_1_n_n.lhsIdx i c 0).val = (i 0).val := by
  unfold DotDims.lhsIdx
  rw [dif_neg (show ¬(0 : Fin S256x192.rank) ∈ dot_S256x192_S192x64_S256x64_1_0_0_1_n_n.lhsBatch by decide),
    dif_pos (show (0 : Fin S256x192.rank) ∈ dot_S256x192_S192x64_S256x64_1_0_0_1_n_n.lhsNonContracting by decide)]
  rfl
theorem lhsB_1 (i : S256x64.Idx) (c : dot_S256x192_S192x64_S256x64_1_0_0_1_n_n.contr.Idx) :
    (dot_S256x192_S192x64_S256x64_1_0_0_1_n_n.lhsIdx i c 1).val = (c ⟨0, by decide⟩).val :=
  dot_S256x192_S192x64_S256x64_1_0_0_1_n_n.lhsIdx_val_of_single rfl i c
theorem rhsB_0 (i : S256x64.Idx) (c : dot_S256x192_S192x64_S256x64_1_0_0_1_n_n.contr.Idx) :
    (dot_S256x192_S192x64_S256x64_1_0_0_1_n_n.rhsIdx i c 0).val = (c ⟨0, by decide⟩).val :=
  dot_S256x192_S192x64_S256x64_1_0_0_1_n_n.rhsIdx_val_of_single rfl i c
theorem rhsB_1 (i : S256x64.Idx) (c : dot_S256x192_S192x64_S256x64_1_0_0_1_n_n.contr.Idx) :
    (dot_S256x192_S192x64_S256x64_1_0_0_1_n_n.rhsIdx i c 1).val = (i 1).val := by
  unfold DotDims.rhsIdx
  rw [dif_neg (show ¬(1 : Fin S192x64.rank) ∈ dot_S256x192_S192x64_S256x64_1_0_0_1_n_n.rhsBatch by decide),
    dif_pos (show (1 : Fin S192x64.rank) ∈ dot_S256x192_S192x64_S256x64_1_0_0_1_n_n.rhsNonContracting by decide)]
  rfl

/-- A [256,192] × [192,64] product into the zero block, at `(p, k)`: the sum over the 192 shared positions. -/
theorem mmB_apply {φ₁ φ₂ : FTy} (A : FVec Ideal S256x192 φ₁) (B : FVec Ideal S192x64 φ₂) (p : Fin 256) (k : Fin 64) :
    matmul dot_S256x192_S192x64_S256x64_1_0_0_1_n_n none A B (constant (F := Ideal) S256x64 .f32 0x00000000#32) (ix2 p k)
      = ∑ f : Fin 192, A (ix2 p f) * B (ix2 f k) := by
  refine (Ideal.matmul_constant_zero_apply dot_S256x192_S192x64_S256x64_1_0_0_1_n_n none A B (ix2 p k)).trans ?_
  rw [← Equiv.sum_comp (contrEquiv1 dot_S256x192_S192x64_S256x64_1_0_0_1_n_n 192 rfl rfl).symm]
  refine Finset.sum_congr rfl fun f _ => ?_
  have hk := contrEquiv1_symm_val dot_S256x192_S192x64_S256x64_1_0_0_1_n_n 192 rfl rfl f
  have el : dot_S256x192_S192x64_S256x64_1_0_0_1_n_n.lhsIdx (ix2 p k)
      ((contrEquiv1 dot_S256x192_S192x64_S256x64_1_0_0_1_n_n 192 rfl rfl).symm f) = ix2 p f :=
    funext fun a => Fin.ext (by
      match a with
      | ⟨0, _⟩ => exact lhsB_0 _ _
      | ⟨1, _⟩ => exact (lhsB_1 _ _).trans hk)
  have er : dot_S256x192_S192x64_S256x64_1_0_0_1_n_n.rhsIdx (ix2 p k)
      ((contrEquiv1 dot_S256x192_S192x64_S256x64_1_0_0_1_n_n 192 rfl rfl).symm f) = ix2 f k :=
    funext fun a => Fin.ext (by
      match a with
      | ⟨0, _⟩ => exact (rhsB_0 _ _).trans hk
      | ⟨1, _⟩ => exact rhsB_1 _ _)
  rw [el, er]

/-! ## Shape casts that insert a unit axis after the first -/

/-- An `[a, b]` array cast to `[a, 1, b]` reads, at `(i, u, j)`, the operand at `(i, j)`: the row-major position is kept. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## One accumulation step -/

/-- The query block's projection at `(p, k)`: row `p` of the block against row `k` of the weights. -/
theorem projA_apply (x0 : Vec Ideal S1x128x192 .f32) (w1 : Vec Ideal S64x192 .f32) (p : Fin 128) (k : Fin 64) :
    matmul dot_S128x192_S192x64_S128x64_1_0_0_1_n_n none
        (truncf .bf16 (shapeCast S128x192 x0 shapeCasts_S1x128x192_S128x192) bitsLt_bf16_f32)
        (transpose S192x64 [1, 0] (truncf .bf16 w1 bitsLt_bf16_f32) transposes_S64x192_p1_0_S192x64)
        (constant (F := Ideal) S128x64 .f32 0x00000000#32) (ix2 p k)
      = ∑ f : Fin 192, x0 (ix3 (0 : Fin 1) p f) * w1 (ix2 k f) := by
  refine (mmA_apply _ _ p k).trans (Finset.sum_congr rfl fun f _ => ?_)
  have e1 : truncf (F := Ideal) (φ := .f32) .bf16 (shapeCast S128x192 x0 shapeCasts_S1x128x192_S128x192) bitsLt_bf16_f32 (ix2 p f)
      = x0 (ix3 (0 : Fin 1) p f) := shapeCast_1ab_ab_apply x0 shapeCasts_S1x128x192_S128x192 p f
  have e2 : transpose S192x64 [1, 0] (truncf (F := Ideal) (φ := .f32) .bf16 w1 bitsLt_bf16_f32) transposes_S64x192_p1_0_S192x64 (ix2 f k)
      = w1 (ix2 k f) := transpose_ix2_apply (truncf (F := Ideal) (φ := .f32) .bf16 w1 bitsLt_bf16_f32) transposes_S64x192_p1_0_S192x64 f k
  exact congrArg₂ (· * ·) e1 e2

/-- The key block's projection at `(q, k)`. -/
theorem projB_apply (x1 : Vec Ideal S1x256x192 .f32) (w2 : Vec Ideal S64x192 .f32) (q : Fin 256) (k : Fin 64) :
    matmul dot_S256x192_S192x64_S256x64_1_0_0_1_n_n none
        (truncf .bf16 (shapeCast S256x192 x1 shapeCasts_S1x256x192_S256x192) bitsLt_bf16_f32)
        (transpose S192x64 [1, 0] (truncf .bf16 w2 bitsLt_bf16_f32) transposes_S64x192_p1_0_S192x64)
        (constant (F := Ideal) S256x64 .f32 0x00000000#32) (ix2 q k)
      = ∑ f : Fin 192, x1 (ix3 (0 : Fin 1) q f) * w2 (ix2 k f) := by
  refine (mmB_apply _ _ q k).trans (Finset.sum_congr rfl fun f _ => ?_)
  have e1 : truncf (F := Ideal) (φ := .f32) .bf16 (shapeCast S256x192 x1 shapeCasts_S1x256x192_S256x192) bitsLt_bf16_f32 (ix2 q f)
      = x1 (ix3 (0 : Fin 1) q f) := shapeCast_1ab_ab_apply x1 shapeCasts_S1x256x192_S256x192 q f
  have e2 : transpose S192x64 [1, 0] (truncf (F := Ideal) (φ := .f32) .bf16 w2 bitsLt_bf16_f32) transposes_S64x192_p1_0_S192x64 (ix2 f k)
      = w2 (ix2 k f) := transpose_ix2_apply (truncf (F := Ideal) (φ := .f32) .bf16 w2 bitsLt_bf16_f32) transposes_S64x192_p1_0_S192x64 f k
  exact congrArg₂ (· * ·) e1 e2

/-- The pair-score tensor at `(p, q, k)`: the logistic of the two projections' sum, each spread along the other's axis. -/
theorem pairT_apply (P : FVec Ideal S128x64 .f32) (Q : FVec Ideal S256x64 .f32) (p : Fin 128) (q : Fin 256) (k : Fin 64) :
    logistic (addf
        (broadcastTo S128x256x64 (shapeCast S128x1x64 P shapeCasts_S128x64_S128x1x64) broadcasts_S128x1x64_S128x256x64)
        (broadcastTo S128x256x64 (shapeCast S1x256x64 Q shapeCasts_S256x64_S1x256x64) broadcasts_S1x256x64_S128x256x64))
      (ix3 p q k) = Ideal.logistic (P (ix2 p k) + Q (ix2 q k)) := by
  have e1 : broadcastTo S128x256x64 (shapeCast S128x1x64 P shapeCasts_S128x64_S128x1x64) broadcasts_S128x1x64_S128x256x64 (ix3 p q k)
      = P (ix2 p k) :=
    (broadcastTo_apply _ broadcasts_S128x1x64_S128x256x64 (ix3 p q k) (ix3 p (0 : Fin 1) k) (fun a => match a with
      | ⟨0, _⟩ => by show p.val = if (128 : ℕ) = 1 then 0 else p.val; rw [if_neg (by decide)]
      | ⟨1, _⟩ => by show 0 = if (1 : ℕ) = 1 then 0 else q.val; rw [if_pos rfl]
      | ⟨2, _⟩ => by show k.val = if (64 : ℕ) = 1 then 0 else k.val; rw [if_neg (by decide)])).trans
    (shapeCast_ab_a1b_apply P shapeCasts_S128x64_S128x1x64 p 0 k)
  have e2 : broadcastTo S128x256x64 (shapeCast S1x256x64 Q shapeCasts_S256x64_S1x256x64) broadcasts_S1x256x64_S128x256x64 (ix3 p q k)
      = Q (ix2 q k) :=
    (broadcastTo_apply _ broadcasts_S1x256x64_S128x256x64 (ix3 p q k) (ix3 (0 : Fin 1) q k) (fun a => match a with
      | ⟨0, _⟩ => by show 0 = if (1 : ℕ) = 1 then 0 else p.val; rw [if_pos rfl]
      | ⟨1, _⟩ => by show q.val = if (256 : ℕ) = 1 then 0 else q.val; rw [if_neg (by decide)]
      | ⟨2, _⟩ => by show k.val = if (64 : ℕ) = 1 then 0 else k.val; rw [if_neg (by decide)])).trans
    (shapeCast_ab_1ab_apply Q shapeCasts_S256x64_S1x256x64 0 q k)
  exact congrArg Ideal.logistic (congrArg₂ (· + ·) e1 e2)

/-- The sum along the last axis of a [128,256,64] tensor, from zero, at `(p, q)`. -/
theorem laneSum_apply (T : FVec Ideal S128x256x64 .f32) (p : Fin 128) (q : Fin 256) :
    multiReduction (F := Ideal) .add [2] S128x256 T 0x00000000#32 reduces_S128x256x64_S128x256 (.inl rfl) rfl (ix2 p q)
      = ∑ k : Fin 64, T (ix3 p q k) := by
  refine (Ideal.multiReduction_add_single T _ reduces_S128x256x64_S128x256 (.inl rfl) rfl (ix2 p q)).trans ?_
  exact Finset.sum_congr rfl fun k _ => congrArg T (funext fun a => Fin.ext (by
    match a with
    | ⟨0, _⟩ => rfl
    | ⟨1, _⟩ => rfl
    | ⟨2, _⟩ => rfl))

/-- The zero block. -/
theorem zero_apply (j : S128x256.Idx) : k0_pay1 (F := Ideal) j = 0 := by
  unfold k0_pay1
  refine (congrFun (shapeCast_self _ shapeCasts_S128x256_S128x256) j).trans ?_
  exact Ideal.ofBits_zero_f32

/-- One accumulation step at entry `(p, q)`. -/
theorem stepv_apply (x0 : Vec Ideal S1x128x192 .f32) (x1 : Vec Ideal S1x256x192 .f32) (w1 w2 : Vec Ideal S64x192 .f32)
    (a : Vec Ideal S128x256 .f32) (p : Fin 128) (q : Fin 256) :
    k0_pay2 (F := Ideal) x0 x1 w1 w2 a (ix2 p q)
      = a (ix2 p q) + ∑ k : Fin 64, Ideal.logistic
          ((∑ f : Fin 192, x0 (ix3 (0 : Fin 1) p f) * w1 (ix2 k f)) + (∑ f : Fin 192, x1 (ix3 (0 : Fin 1) q f) * w2 (ix2 k f))) := by
  unfold k0_pay2
  refine (congrFun (shapeCast_self _ shapeCasts_S128x256_S128x256) (ix2 p q)).trans ?_
  refine congrArg (a (ix2 p q) + ·) ?_
  refine (laneSum_apply _ p q).trans (Finset.sum_congr rfl fun k _ => ?_)
  refine (pairT_apply _ _ p q k).trans ?_
  exact congrArg Ideal.logistic (congrArg₂ (· + ·) (projA_apply x0 w1 p k) (projB_apply x1 w2 q k))

/-! ## The output block -/

/-- A `[128]` column kept as `[128, 1]` and spread over the 256 lanes reads, at `(p, q)`, the column at `p`. -/
theorem keep_apply {α : Type} (M : S128.Idx → α) (p : Fin 128) (q : Fin 256) :
    broadcastTo S128x256 (shapeCast S128x1 M shapeCasts_S128_S128x1) broadcasts_S128x1_S128x256 (ix2 p q) = M (ix1 p) :=
  (broadcastTo_apply _ broadcasts_S128x1_S128x256 (ix2 p q) (ix2 p (0 : Fin 1)) (fun a => match a with
    | ⟨0, _⟩ => by show p.val = if (128 : ℕ) = 1 then 0 else p.val; rw [if_neg (by decide)]
    | ⟨1, _⟩ => by show 0 = if (1 : ℕ) = 1 then 0 else q.val; rw [if_pos rfl])).trans
  (shapeCast_a_a1_apply M shapeCasts_S128_S128x1 p 0)

/-- The row maximum of a [128,256] block at `p`: from minus infinity upwards, and once more against minus infinity. -/
theorem rowMax_apply (X : FVec Ideal S128x256 .f32) (p : Fin 128) :
    maximumf (broadcast S128 (Scalar.ofBits (F := Ideal) .f32 0xFF800000#32))
        (multiReduction (F := Ideal) .maximumf [1] S128 X 0xFF800000#32 reduces_S128x256_S128 (.inl rfl) rfl) (ix1 p)
      = Cert.Proof.Spec.rowMax (fun q' : Fin 256 => X (ix2 p q')) := by
  unfold Cert.Proof.Spec.rowMax
  refine congrArg (max Cert.Proof.Spec.ninf) ?_
  refine (Ideal.multiReduction_maximumf_single X _ reduces_S128x256_S128 (.inl rfl) rfl (ix1 p)).trans ?_
  have hrow : (X ∘ reduces_S128x256_S128.lift (ix1 p)) = fun q' : Fin 256 => X (ix2 p q') :=
    funext fun q' => congrArg X (funext fun a => Fin.ext (by
      match a with
      | ⟨0, _⟩ => rfl
      | ⟨1, _⟩ => rfl))
  exact congrArg (fun g : Fin 256 → EReal => (Finset.univ : Finset (Fin 256)).fold max Cert.Proof.Spec.ninf g) hrow

/-- The shifted exponentials at `(p, q)`. -/
theorem expT_apply (X : FVec Ideal S128x256 .f32) (M : FVec Ideal S128 .f32) (p : Fin 128) (q : Fin 256) :
    exp (subf X (broadcastTo S128x256 (shapeCast S128x1 M shapeCasts_S128_S128x1) broadcasts_S128x1_S128x256)) (ix2 p q)
      = Ideal.exp (X (ix2 p q) - M (ix1 p)) :=
  congrArg (fun m => Ideal.exp (X (ix2 p q) - m)) (keep_apply M p q)

/-- The sum along the rows of a [128,256] block, from zero, at `p`. -/
theorem rowSum_apply (E : FVec Ideal S128x256 .f32) (p : Fin 128) :
    multiReduction (F := Ideal) .add [1] S128 E 0x00000000#32 reduces_S128x256_S128 (.inl rfl) rfl (ix1 p)
      = ∑ q' : Fin 256, E (ix2 p q') := by
  refine (Ideal.multiReduction_add_single E _ reduces_S128x256_S128 (.inl rfl) rfl (ix1 p)).trans ?_
  exact Finset.sum_congr rfl fun q' _ => congrArg E (funext fun a => Fin.ext (by
    match a with
    | ⟨0, _⟩ => rfl
    | ⟨1, _⟩ => rfl))

/-- The stored output block at entry `(0, p, q)`: the row softmax of scratch plus bias. -/
theorem outv_apply (l vs : Vec Ideal S128x256 .f32) (p : Fin 128) (q : Fin 256) :
    k0_pay3 (F := Ideal) l vs (ix3 (0 : Fin 1) p q)
      = Cert.Proof.Spec.softmaxRow (fun q' : Fin 256 => l (ix2 p q') + vs (ix2 p q')) q := by
  unfold k0_pay3
  refine (shapeCast_ab_1ab_apply _ shapeCasts_S128x256_S1x128x256 0 p q).trans ?_
  unfold Cert.Proof.Spec.softmaxRow
  refine congrArg₂ Ideal.div ?_ ?_
  · refine (expT_apply _ _ p q).trans ?_
    exact congrArg (fun m => Ideal.exp ((l (ix2 p q) + vs (ix2 p q)) - m)) (rowMax_apply (addf l vs) p)
  · refine (keep_apply _ p q).trans ?_
    refine (rowSum_apply _ p).trans (Finset.sum_congr rfl fun q' _ => ?_)
    refine (expT_apply _ _ p q').trans ?_
    exact congrArg (fun m => Ideal.exp ((l (ix2 p q') + vs (ix2 p q')) - m)) (rowMax_apply (addf l vs) p)

end Cert.Proof.KI

end
-- ==== Proof.IdealValue.lean ====
/- The idealized kernel's result as one function of its arguments: the array the region leaves is the specification.

   At a row tile's last step the scratch holds, entry by entry, the sum of all 256 pair scores (four runs of 64 accumulated
   from zero), so the block written back there is the softmax block of the logits; the 16 written-back blocks tile the
   output array. -/
import proofs.«172554_j54065048322469_1_alg».proof.Proof.IdealData
import proofs.«172554_j54065048322469_1_alg».proof.Proof.IdealBlocks
import proofs.«172554_j54065048322469_1_alg».proof.Proof.IdealPayload
import proofs.«172554_j54065048322469_1_alg».proof.Proof.Spec
import Idealize.ShloMosaic.Lib.Pipeline.Value
import Idealize.ShloMosaic.Lib.ValueIdx

set_option maxRecDepth 16384

noncomputable section

open scoped BigOperators

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The specification at the region's arrays on core `c`: the reshaped input, the two weight matrices, the bias. -/
abbrev Gc (c : Dev nD) : Buf (Elt Ideal) ((cfg0.win 5).arr.view.loc (c.tc : Thread nD τ)) :=
  Cert.Proof.Spec.G (V m c main_v0) (V m c main_arg1) (V m c main_arg2) (V m c main_arg3)

/-! ## The scratch at a row tile's last step -/

/-- One accumulation step at entry `(p, q)`: the 64 pair scores of the step's weight rows are added. -/
theorem stepSum_at (c : Dev nD) (s : Fin cfg0.N) (a : Vec Ideal S128x256 .f32) (p : Fin 128) (q : Fin 256) :
    stepv (xq m c s) (xk m c s) (wa m c s) (wb m c s) a (ix2 p q)
      = a (ix2 p q) + ∑ k : Fin 64, Cert.Proof.Spec.pair (Xf m c) (Wa m c) (Wb m c) (bOf s) (rowOf (iOf s) p) q (wrowOf (kOf s) k) := by
  refine (stepv_apply (xq m c s) (xk m c s) (wa m c s) (wb m c s) a p q).trans ?_
  refine congrArg (a (ix2 p q) + ·) (Finset.sum_congr rfl fun k _ => ?_)
  unfold Cert.Proof.Spec.pair Cert.Proof.Spec.proj
  refine congrArg Ideal.logistic ?_
  refine congrArg₂ (· + ·) (Finset.sum_congr rfl fun f _ => ?_) (Finset.sum_congr rfl fun f _ => ?_)
  · rw [xq_apply, wa_apply]
  · rw [xk_apply, wb_apply]

/-- The scratch after a point that is not a row tile's first: one step from what the point before left. -/
theorem scratch_succ (c : Dev nD) (k : ℕ) (hk : k + 1 < cfg0.N) (h : (k + 1) % 4 ≠ 0) :
    accA m c (k + 1) hk
      = stepv (xq m c ⟨k + 1, hk⟩) (xk m c ⟨k + 1, hk⟩) (wa m c ⟨k + 1, hk⟩) (wb m c ⟨k + 1, hk⟩) (accA m c k (Nat.lt_of_succ_lt hk)) := by
  show (if (k + 1) % 4 = 0 then _ else _) = _
  rw [if_neg h]

/-- Three steps after a row tile's first step the scratch holds, entry by entry, the sum of all 256 pair scores. -/
theorem scratch_four (c : Dev nD) (n : ℕ) (h0 : n % 4 = 0) (h3 : n + 3 < cfg0.N) (p : Fin 128) (q : Fin 256) :
    accA m c (n + 3) h3 (ix2 p q)
      = ∑ k : Fin 256, Cert.Proof.Spec.pair (Xf m c) (Wa m c) (Wb m c) (bOf ⟨n + 3, h3⟩) (rowOf (iOf ⟨n + 3, h3⟩) p) q k := by
  have hN : n + 3 < 64 := lt64 ⟨n + 3, h3⟩
  have h2 : n + 2 < cfg0.N := Nat.lt_of_succ_lt h3
  have h1 : n + 1 < cfg0.N := Nat.lt_of_succ_lt h2
  have hn : n < cfg0.N := Nat.lt_of_succ_lt h1
  rw [scratch_succ m c (n + 2) h3 (by omega), stepSum_at, scratch_succ m c (n + 1) h2 (by omega), stepSum_at,
    scratch_succ m c n h1 (by omega), stepSum_at, accA_first m c ⟨n, hn⟩ h0]
  show stepv (xq m c ⟨n, hn⟩) (xk m c ⟨n, hn⟩) (wa m c ⟨n, hn⟩) (wb m c ⟨n, hn⟩) (k0_pay1 (F := Ideal)) (ix2 p q) + _ + _ + _ = _
  rw [stepSum_at, zero_apply]
  have hb0 : bOf ⟨n, hn⟩ = bOf ⟨n + 3, h3⟩ := Fin.ext (by show n / 8 = (n + 3) / 8; omega)
  have hb1 : bOf ⟨n + 1, h1⟩ = bOf ⟨n + 3, h3⟩ := Fin.ext (by show (n + 1) / 8 = (n + 3) / 8; omega)
  have hb2 : bOf ⟨n + 2, h2⟩ = bOf ⟨n + 3, h3⟩ := Fin.ext (by show (n + 2) / 8 = (n + 3) / 8; omega)
  have hi0 : iOf ⟨n, hn⟩ = iOf ⟨n + 3, h3⟩ := Fin.ext (by show n / 4 % 2 = (n + 3) / 4 % 2; omega)
  have hi1 : iOf ⟨n + 1, h1⟩ = iOf ⟨n + 3, h3⟩ := Fin.ext (by show (n + 1) / 4 % 2 = (n + 3) / 4 % 2; omega)
  have hi2 : iOf ⟨n + 2, h2⟩ = iOf ⟨n + 3, h3⟩ := Fin.ext (by show (n + 2) / 4 % 2 = (n + 3) / 4 % 2; omega)
  have hw0 : ∀ k : Fin 64, wrowOf (kOf ⟨n, hn⟩) k = ⟨k.val, by omega⟩ :=
    fun k => Fin.ext (by show 64 * (n % 4) + k.val = k.val; omega)
  have hw1 : ∀ k : Fin 64, wrowOf (kOf ⟨n + 1, h1⟩) k = ⟨64 + k.val, by omega⟩ :=
    fun k => Fin.ext (by show 64 * ((n + 1) % 4) + k.val = 64 + k.val; omega)
  have hw2 : ∀ k : Fin 64, wrowOf (kOf ⟨n + 2, h2⟩) k = ⟨128 + k.val, by omega⟩ :=
    fun k => Fin.ext (by show 64 * ((n + 2) % 4) + k.val = 128 + k.val; omega)
  have hw3 : ∀ k : Fin 64, wrowOf (kOf ⟨n + 3, h3⟩) k = ⟨192 + k.val, by omega⟩ :=
    fun k => Fin.ext (by show 64 * ((n + 3) % 4) + k.val = 192 + k.val; omega)
  simp only [hb0, hb1, hb2, hi0, hi1, hi2, hw0, hw1, hw2, hw3]
  exact Cert.Proof.Spec.sum_four_runs
    (fun k => Cert.Proof.Spec.pair (Xf m c) (Wa m c) (Wb m c) (bOf ⟨n + 3, h3⟩) (rowOf (iOf ⟨n + 3, h3⟩) p) q k)

/-- At a row tile's last step the scratch holds the sum of all 256 pair scores of the tile's rows. -/
theorem scratch_last (c : Dev nD) (t : Fin cfg0.N) (h : t.val % 4 = 3) (p : Fin 128) (q : Fin 256) :
    accA m c t.val t.isLt (ix2 p q)
      = ∑ k : Fin 256, Cert.Proof.Spec.pair (Xf m c) (Wa m c) (Wb m c) (bOf t) (rowOf (iOf t) p) q k := by
  obtain ⟨v, hv⟩ := t
  obtain ⟨n, rfl⟩ : ∃ n, v = n + 3 := ⟨v - 3, by have : v % 4 = 3 := h; omega⟩
  exact scratch_four m c n (by have : (n + 3) % 4 = 3 := h; omega) hv p q

/-! ## What a last step writes back -/

/-- The output window's block index at point `t`, per axis. -/
theorem idxO : ∀ t : Fin cfg0.N, win0_5.index t (0 : Fin 3) = t.val / 8 ∧ win0_5.index t (1 : Fin 3) = (t.val / 4) % 2
    ∧ win0_5.index t (2 : Fin 3) = 0 :=
  (by decide +kernel : ∀ t : Fin grid0.N, _)

/-- Entry `(0, p, q)` of the output block at point `t` is entry `(batch, 128 * tile + p, q)` of the output array. -/
theorem out_emb (t : Fin cfg0.N) (p : Fin 128) (q : Fin 256) :
    ((cfg0.win 5).blk t).view.emb (ix3 (0 : Fin 1) p q) = ix3 (bOf t) (rowOf (iOf t) p) q := by
  obtain ⟨e0, e1, e2⟩ := idxO t
  funext a; apply Fin.ext
  match a with
  | ⟨0, _⟩ => show win0_5.index t (0 : Fin 3) * 1 + 1 * 0 = t.val / 8; omega
  | ⟨1, _⟩ => show win0_5.index t (1 : Fin 3) * 128 + 1 * p.val = 128 * ((t.val / 4) % 2) + p.val; omega
  | ⟨2, _⟩ => show win0_5.index t (2 : Fin 3) * 256 + 1 * q.val = q.val; omega

/-- WHAT A LAST STEP WRITES BACK is its block of the specification: the softmax rows of the tile's logits. -/
theorem flushed_eq (c : Dev nD) (t : Fin cfg0.N) (hf : (cfg0.win 5).flush t = true) :
    (dats m 0 c).flushed 5 t = ((cfg0.win 5).blk t).view.read (Elt Ideal) (Gc m c) := by
  have h3 : t.val % 4 = 3 := (flush0_5 t).mp hf
  show (cfg0.win 5).cut (grid0.coords t) ((dats m 0 c).after 5 t) = _
  rw [after5]
  unfold outAt
  funext y
  obtain ⟨z, p, q, rfl⟩ : ∃ (z : Fin 1) (p : Fin 128) (q : Fin 256), y = ix3 z p q := ⟨y 0, y 1, y 2, eq_ix3 y⟩
  obtain rfl : z = 0 := Subsingleton.elim _ _
  rw [View.read_apply, out_emb]
  show k0_pay3 (F := Ideal) (accA m c t.val t.isLt) (vb m c t) (ix3 (0 : Fin 1) p q)
    = Cert.Proof.Spec.G (Xf m c) (Wa m c) (Wb m c) (Bs m c) (ix3 (bOf t) (rowOf (iOf t) p) q)
  rw [outv_apply, Cert.Proof.Spec.G_apply]
  refine congrArg (fun row => Cert.Proof.Spec.softmaxRow row q) (funext fun q' => ?_)
  rw [scratch_last m c t h3 p q', vb_apply]
  rfl

/-! ## The written-back blocks tile the output array -/

/-- An index of the output array is in point `t`'s block iff each coordinate is in the block's range on its axis. -/
theorem mem_out_blk (t : Fin cfg0.N) (i : S8x256x256.Idx) :
    i ∈ ((cfg0.win 5).blk t).view.set ↔ ∀ a : Fin 3, win0_5.index t a * S1x128x256.size a ≤ (i a).val
      ∧ (i a).val < win0_5.index t a * S1x128x256.size a + S1x128x256.size a := by
  show i ∈ ((View.whole main_v1).slice (win0_5.rect t)).set ↔ _
  rw [View.set_slice_whole, Rect.mem_set_unit]
  exact Iff.rfl

/-- Entry `(b, i, j)` lies in the block written back at the last step of row tile `i / 128` of batch `b`. -/
theorem cover (i : S8x256x256.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 256 := (i 2).isLt
  have hN : ((i 0).val * 2 + (i 1).val / 128) * 4 + 3 < cfg0.N := by show _ < grid0.N; rw [N_0]; omega
  refine ⟨⟨((i 0).val * 2 + (i 1).val / 128) * 4 + 3, hN⟩, (flush0_5 _).mpr ?_, ?_⟩
  · show (((i 0).val * 2 + (i 1).val / 128) * 4 + 3) % 4 = 3
    omega
  · rw [mem_out_blk]
    have e0 : win0_5.index ⟨((i 0).val * 2 + (i 1).val / 128) * 4 + 3, hN⟩ (0 : Fin 3)
        = (((i 0).val * 2 + (i 1).val / 128) * 4 + 3) / 8 := (idxO _).1
    have e1 : win0_5.index ⟨((i 0).val * 2 + (i 1).val / 128) * 4 + 3, hN⟩ (1 : Fin 3)
        = ((((i 0).val * 2 + (i 1).val / 128) * 4 + 3) / 4) % 2 := (idxO _).2.1
    have e2 : win0_5.index ⟨((i 0).val * 2 + (i 1).val / 128) * 4 + 3, hN⟩ (2 : Fin 3) = 0 := (idxO _).2.2
    intro a
    match a with
    | ⟨0, _⟩ =>
      show win0_5.index _ (0 : Fin 3) * 1 ≤ (i 0).val ∧ (i 0).val < win0_5.index _ (0 : Fin 3) * 1 + 1
      rw [e0]; omega
    | ⟨1, _⟩ =>
      show win0_5.index _ (1 : Fin 3) * 128 ≤ (i 1).val ∧ (i 1).val < win0_5.index _ (1 : Fin 3) * 128 + 128
      rw [e1]; omega
    | ⟨2, _⟩ =>
      show win0_5.index _ (2 : Fin 3) * 256 ≤ (i 2).val ∧ (i 2).val < win0_5.index _ (2 : Fin 3) * 256 + 256
      rw [e2]; omega

/-- THE RESULT: after the run the output array holds the specification. -/
theorem final_out (c : Dev nD) : (dats m 0 c).arrAt 5 cfg0.N = Gc m c :=
  (dats m 0 c).arrAt_eq_of_cover 5 (Gc m c) (fun t hf => flushed_eq m c t hf) (fun i => cover i)

end Cert.Proof.KI

end
-- ==== Proof.RefSpec.lean ====
import proofs.«172554_j54065048322469_1_alg».proof.Proof.Gen.ReferenceIdeal.Run
import proofs.«172554_j54065048322469_1_alg».proof.Proof.Gen.ReferenceIdeal.Read
import proofs.«172554_j54065048322469_1_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Proof.RefSpec

open Cert.ReferenceIdeal Cert.ReferenceIdeal.Read Idealize.ShloMosaic Idealize.ShloMosaic.ValueIdx

section Stages

variable (x0 : (⟨S8x256x16x12, .f32⟩ : BufTy).Contents (Elt Ideal))
  (x1 x2 : (⟨S256x192, .f32⟩ : BufTy).Contents (Elt Ideal))
  (x3 : (⟨S256x256, .f32⟩ : BufTy).Contents (Elt Ideal))

/-- The float word of one is the extended real one. -/
theorem ofBits_one_f32 : Ideal.ofBits .f32 0x3F800000#32 = 1 := by
  simp [Ideal.ofBits, Ideal.ieee, -EReal.coe_mul]; norm_num

/-- The first dot product at (b, n, k) is the projection of node n on row k of the first weight matrix. -/
theorem v1_at (b : Fin 8) (n k : Fin 256) :
    val_main_v1 (F := Ideal) x0 x1 (ix3 b n k) = Cert.Proof.Spec.proj (val_main_v0 (F := Ideal) x0) x1 b n k := by
  rw [val_main_v1_apply]
  unfold Cert.Proof.Spec.proj
  refine Finset.sum_congr rfl fun f _ => ?_
  have el : lidx_main_v1 (ix3 b n k) f = ix3 b n f := by
    funext a; match a with | ⟨0, _⟩ => rfl | ⟨1, _⟩ => rfl | ⟨2, _⟩ => rfl
  have er : ridx_main_v1 (ix3 b n k) f = ix2 k f := by
    funext a; match a with | ⟨0, _⟩ => rfl | ⟨1, _⟩ => rfl
  rw [el, er]

/-- The second dot product likewise, with the second weight matrix. -/
theorem v2_at (b : Fin 8) (n k : Fin 256) :
    val_main_v2 (F := Ideal) x0 x2 (ix3 b n k) = Cert.Proof.Spec.proj (val_main_v0 (F := Ideal) x0) x2 b n k := by
  rw [val_main_v2_apply]
  unfold Cert.Proof.Spec.proj
  refine Finset.sum_congr rfl fun f _ => ?_
  have el : lidx_main_v2 (ix3 b n k) f = ix3 b n f := by
    funext a; match a with | ⟨0, _⟩ => rfl | ⟨1, _⟩ => rfl | ⟨2, _⟩ => rfl
  have er : ridx_main_v2 (ix3 b n k) f = ix2 k f := by
    funext a; match a with | ⟨0, _⟩ => rfl | ⟨1, _⟩ => rfl
  rw [el, er]

/-- The quotient 1 / (1 + exp (-(p + q))) at (b, i, j, k) is the pair score of nodes i and j at k. -/
theorem v13_at (b : Fin 8) (i j k : Fin 256) :
    val_main_v13 (F := Ideal) x0 x1 x2 (ix4 b i j k)
      = Cert.Proof.Spec.pair (val_main_v0 (F := Ideal) x0) x1 x2 b i j k := by
  have e5 : idx_main_v3 (idx_main_v5 (ix4 b i j k)) = ix3 b i k := by
    funext a; match a with | ⟨0, _⟩ => rfl | ⟨1, _⟩ => rfl | ⟨2, _⟩ => rfl
  have e6 : idx_main_v4 (idx_main_v6 (ix4 b i j k)) = ix3 b j k := by
    funext a; match a with | ⟨0, _⟩ => rfl | ⟨1, _⟩ => rfl | ⟨2, _⟩ => rfl
  rw [val_main_v13_apply, val_main_v12_apply, val_main_cst_0_apply, val_main_v11_apply, val_main_v10_apply,
    val_main_cst_apply, val_main_v9_apply, val_main_v8_apply, val_main_v7_apply, val_main_v5_apply, val_main_v3_apply,
    val_main_v6_apply, val_main_v4_apply, e5, e6, v1_at, v2_at]
  simp only [Ideal.hostDivf_def, Ideal.addf_def, Ideal.hostUnary_exp_def, Ideal.hostNegf_def, Ideal.negf_def, Ideal.ofBits_def,
    ofBits_one_f32]
  rfl

/-- The sum of the pair scores over k, from zero. -/
theorem v14_at (b : Fin 8) (i j : Fin 256) :
    val_main_v14 (F := Ideal) x0 x1 x2 (ix3 b i j)
      = ∑ k : Fin 256, Cert.Proof.Spec.pair (val_main_v0 (F := Ideal) x0) x1 x2 b i j k := by
  rw [val_main_v14_apply, val_main_cst_1_apply]
  simp only [Ideal.ofBits_def, Ideal.ofBits_zero_f32, zero_add]
  refine Finset.sum_congr rfl fun k _ => ?_
  have e : idx_main_v14 (ix3 b i j) k = ix4 b i j k := by
    funext a; match a with | ⟨0, _⟩ => rfl | ⟨1, _⟩ => rfl | ⟨2, _⟩ => rfl | ⟨3, _⟩ => rfl
  rw [e, v13_at]

/-- The sum plus the bias is the logit. -/
theorem v17_at (b : Fin 8) (i j : Fin 256) :
    val_main_v17 (F := Ideal) x0 x1 x2 x3 (ix3 b i j)
      = Cert.Proof.Spec.logit (val_main_v0 (F := Ideal) x0) x1 x2 x3 b i j := by
  have e : idx_main_v15 (idx_main_v16 (ix3 b i j)) = ix2 i j := by
    funext a; match a with | ⟨0, _⟩ => rfl | ⟨1, _⟩ => rfl
  rw [val_main_v17_apply, v14_at, val_main_v16_apply, val_main_v15_apply, e]
  rfl

/-- The row index (b, i) with coordinate k put back on the last axis is (b, i, k). -/
theorem lift_ix2 (h : S8x256x256.Reduces [2] S8x256) (b : Fin 8) (i : Fin 256) (k : Fin (S8x256x256.size 2)) :
    h.lift (ix2 b i) k = ix3 b i (⟨k.val, k.isLt⟩ : Fin 256) := by
  funext c; apply Fin.ext
  match c with | ⟨0, _⟩ => rfl | ⟨1, _⟩ => rfl | ⟨2, _⟩ => rfl

/-- The maximum over j, from minus infinity, of the logits of row (b, i). -/
theorem v18_at (b : Fin 8) (i : Fin 256) :
    val_main_v18 (F := Ideal) x0 x1 x2 x3 (ix2 b i)
      = (Finset.univ : Finset (Fin 256)).fold max Cert.Proof.Spec.ninf
          (fun j => Cert.Proof.Spec.logit (val_main_v0 (F := Ideal) x0) x1 x2 x3 b i j) := by
  unfold val_main_v18
  rw [Host.reduce_eq_fold_single FloatOps.maximumf _ _ Gen.reducesTo_S8x256x256_S8x256_d2 (by decide) Gen.h_S_]
  have hf : (val_main_v17 (F := Ideal) x0 x1 x2 x3 ∘ (by decide : S8x256x256.Reduces [2] S8x256).lift (ix2 b i))
      = fun j : Fin 256 => Cert.Proof.Spec.logit (val_main_v0 (F := Ideal) x0) x1 x2 x3 b i j :=
    funext fun k => by
      show val_main_v17 (F := Ideal) x0 x1 x2 x3 (Shape.Reduces.lift _ (ix2 b i) k) = _
      rw [lift_ix2, v17_at]
      rfl
  rw [hf]
  rfl

/-- The maximum once more against minus infinity: the row maximum of the specification. -/
theorem v20_at (b : Fin 8) (i : Fin 256) :
    val_main_v20 (F := Ideal) x0 x1 x2 x3 (ix2 b i)
      = Cert.Proof.Spec.rowMax (fun j => Cert.Proof.Spec.logit (val_main_v0 (F := Ideal) x0) x1 x2 x3 b i j) := by
  rw [val_main_v20_apply, val_main_v19_apply, val_main_cst_3_apply, v18_at]
  rfl

/-- The exponential of the logit shifted by its row's maximum. -/
theorem v24_at (b : Fin 8) (i j : Fin 256) :
    val_main_v24 (F := Ideal) x0 x1 x2 x3 (ix3 b i j)
      = Ideal.exp (Cert.Proof.Spec.logit (val_main_v0 (F := Ideal) x0) x1 x2 x3 b i j
          - Cert.Proof.Spec.rowMax (fun j' => Cert.Proof.Spec.logit (val_main_v0 (F := Ideal) x0) x1 x2 x3 b i j')) := by
  have e : idx_main_v21 (idx_main_v22 (ix3 b i j)) = ix2 b i := by
    funext a; match a with | ⟨0, _⟩ => rfl | ⟨1, _⟩ => rfl
  rw [val_main_v24_apply, val_main_v23_apply, v17_at, val_main_v22_apply, val_main_v21_apply, e, v20_at]
  rfl

/-- The sum over j of the shifted exponentials of row (b, i), from zero. -/
theorem v25_at (b : Fin 8) (i : Fin 256) :
    val_main_v25 (F := Ideal) x0 x1 x2 x3 (ix2 b i)
      = ∑ j' : Fin 256, Ideal.exp (Cert.Proof.Spec.logit (val_main_v0 (F := Ideal) x0) x1 x2 x3 b i j'
          - Cert.Proof.Spec.rowMax (fun j'' => Cert.Proof.Spec.logit (val_main_v0 (F := Ideal) x0) x1 x2 x3 b i j'')) := by
  rw [val_main_v25_apply, val_main_cst_4_apply]
  simp only [Ideal.ofBits_def, Ideal.ofBits_zero_f32, zero_add]
  refine Finset.sum_congr rfl fun k _ => ?_
  have e : idx_main_v25 (ix2 b i) k = ix3 b i k := by
    funext a; match a with | ⟨0, _⟩ => rfl | ⟨1, _⟩ => rfl | ⟨2, _⟩ => rfl
  rw [e, v24_at]

end Stages

/-- The reference program's result is the specification: entry (b, i, j) is the softmax over j of the logit row (b, i). -/
theorem ref_is_spec (x0 : (⟨S8x256x16x12, .f32⟩ : BufTy).Contents (Elt Ideal)) (x1 x2 : (⟨S256x192, .f32⟩ : BufTy).Contents (Elt Ideal)) (x3 : (⟨S256x256, .f32⟩ : BufTy).Contents (Elt Ideal)) :
    val_main_v28 (F := Ideal) x0 x1 x2 x3 = Cert.Proof.Spec.G (val_main_v0 (F := Ideal) x0) x1 x2 x3 := by
  funext y
  obtain ⟨b, i, j, rfl⟩ : ∃ (b : Fin 8) (i j : Fin 256), y = ix3 b i j := ⟨y 0, y 1, y 2, eq_ix3 y⟩
  have e : idx_main_v26 (idx_main_v27 (ix3 b i j)) = ix2 b i := by
    funext a; match a with | ⟨0, _⟩ => rfl | ⟨1, _⟩ => rfl
  rw [Cert.Proof.Spec.G_apply, val_main_v28_apply, v24_at, val_main_v27_apply, val_main_v26_apply, e, v25_at]
  rfl

end Cert.Proof.RefSpec

end
-- ==== Proof.lean ====
/- The certificate: the kernel (a fused projection, pairwise logistic reduction, bias and row softmax, tiled over batches,
   row tiles and reduction steps) against its reference.

   The three frames: each kernel program's run (its one region launched with the reshaped input shared between two
   windows) ends with the arguments as launched; the reference is host operations only. The idealization rewrote nothing.
   The value claim: the kernel's output array is the specification `Spec.G` of the reshaped input, the weights and the bias
   (the running sum in the scratch, four runs of 64 pair scores from zero, is the whole 256-term sum), and so is the
   reference's result, read one operation at a time. -/
import proofs.«172554_j54065048322469_1_alg».proof.Defs
import proofs.«172554_j54065048322469_1_alg».proof.Proof.Gen.Kernel
import proofs.«172554_j54065048322469_1_alg».proof.Proof.Gen.KernelIdeal
import proofs.«172554_j54065048322469_1_alg».proof.Proof.Gen.ReferenceIdeal
import proofs.«172554_j54065048322469_1_alg».proof.Proof.Gen.Pre_finite_inputs
import proofs.«172554_j54065048322469_1_alg».proof.Proof.Gen.ReferenceIdeal.Run
import proofs.«172554_j54065048322469_1_alg».proof.Proof.Gen.ReferenceIdeal.Read
import proofs.«172554_j54065048322469_1_alg».proof.Proof.BitsRun
import proofs.«172554_j54065048322469_1_alg».proof.Proof.IdealRun
import proofs.«172554_j54065048322469_1_alg».proof.Proof.IdealValue
import proofs.«172554_j54065048322469_1_alg».proof.Proof.RefSpec
import Idealize.ShloMosaic.Adequacy
import Idealize.ShloMosaic.Init

noncomputable section

namespace Cert.Proof

open Idealize.ShloMosaic Idealize.SL.Sem

/-- The reference's result, over the kernel's launch memory, is the specification at the region's arrays. -/
theorem ref_result (m : (ℓ : Loc Cert.KernelIdeal.nD Cert.KernelIdeal.τ Cert.KernelIdeal.sig) → Buf (Elt Ideal) ℓ)
    (c : Dev Cert.KernelIdeal.nD) :
    Cert.ReferenceIdeal.Read.val_main_v28 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.Proof.KI.Gc m c := by
  rw [Cert.Proof.RefSpec.ref_is_spec]
  unfold Cert.Proof.KI.Gc
  rw [Cert.Proof.KI.V_main_arg1, Cert.Proof.KI.V_main_arg2, Cert.Proof.KI.V_main_arg3,
    show (Cert.Proof.KI.V m c Cert.KernelIdeal.main_v0 : Vec Ideal Cert.KernelIdeal.S8x256x192 .f32) = _ from Cert.Proof.KI.V_main_v0 m c]
  rfl

theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.Proof.K.run_main (F := Bits) m ρ),
  fun m ρ _ => (θ_run Cert.KernelIdeal.defs _ _).mono (fun _ h c => (h c).2) (Cert.Proof.KI.run_main (F := Ideal) m ρ),
  fun m ρ _ => (θ_run Cert.ReferenceIdeal.defs _ _).mono (fun _ h c => (h c).2) (Cert.ReferenceIdeal.Value.run (F := Ideal) m ρ),
  trivial,
  fun m ρ m' ρ' _ hagree => ⟨fun c => Cert.Proof.KI.Gc m c,
    (θ_run Cert.KernelIdeal.defs _ _).mono (fun _ h c => ⟨(h c).1.trans (Cert.Proof.KI.final_out m c), (h c).2⟩)
      (Cert.Proof.KI.run_main (F := Ideal) m ρ),
    (θ_run Cert.ReferenceIdeal.defs _ _).mono
      (fun _ h c => ⟨by
          rw [(h c).1, Cert.ReferenceIdeal.Read.val_main_v28_eq, (hagree c).1, (hagree c).2.1, (hagree c).2.2.1, (hagree c).2.2.2]
          exact ref_result m c,
        (h c).2⟩)
      (Cert.ReferenceIdeal.Value.run (F := Ideal) m' ρ')⟩⟩

end Cert.Proof

end
